-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S128x8 : Shape := ⟨2, ![128, 8]⟩
abbrev S8 : Shape := ⟨1, ![8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S16384x512 .f32) (main_arg1 : FVec F S16384x16384 .f32) (main_arg2 : FVec F S512x128 .f32) (main_arg3 : FVec F S128x8 .f32) (main_arg4 : FVec F S8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_v13 main_v16
-- ==== Kernel.lean ====
abbrev S16384x512 : Shape := ⟨2, ![16384, 512]⟩
abbrev S16384x16384 : Shape := ⟨2, ![16384, 16384]⟩
abbrev S512x128 : Shape := ⟨2, ![512, 128]⟩
abbrev S128x8 : Shape := ⟨2, ![128, 8]⟩
abbrev S8 : Shape := ⟨1, ![8]⟩
abbrev S16384x128 : Shape := ⟨2, ![16384, 128]⟩
abbrev S16384x8 : Shape := ⟨2, ![16384, 8]⟩
abbrev S1024x2048 : Shape := ⟨2, ![1024, 2048]⟩
abbrev S2048x128 : Shape := ⟨2, ![2048, 128]⟩
abbrev S1024x8 : Shape := ⟨2, ![1024, 8]⟩
abbrev S1024x128 : Shape := ⟨2, ![1024, 128]⟩
abbrev S1x8 : Shape := ⟨2, ![1, 8]⟩
abbrev S2048x8 : Shape := ⟨2, ![2048, 8]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S128x8, .f32⟩
  | .hbm, ⟨4, _⟩ => ⟨S8, .f32⟩
  | .hbm, ⟨5, _⟩ => ⟨S16384x128, .f32⟩
  | .hbm, ⟨6, _⟩ => ⟨S16384x128, .bf16⟩
  | .hbm, ⟨7, _⟩ => ⟨S16384x8, .bf16⟩
  | .hbm, ⟨8, _⟩ => ⟨S1x8, .f32⟩
  | .hbm, ⟨9, _⟩ => ⟨S16384x8, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S2048x128, .bf16⟩
  | .local _ .vmem, ⟨4, _⟩ => ⟨S128x8, .f32⟩
  | .local _ .vmem, ⟨5, _⟩ => ⟨S1024x8, .bf16⟩
  | .local _ .vmem, ⟨6, _⟩ => ⟨S1024x8, .bf16⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S2048x8, .bf16⟩
  | .local _ .vmem, ⟨11, _⟩ => ⟨S2048x8, .bf16⟩
  | .local _ .vmem, ⟨12, _⟩ => ⟨S1x8, .f32⟩
  | .local _ .vmem, ⟨13, _⟩ => ⟨S1024x8, .f32⟩
  | .local _ .vmem, ⟨14, _⟩ => ⟨S1024x8, .f32⟩
  | .local _ .vmem, ⟨15, _⟩ => ⟨S1024x8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x8 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x8_S128x8_0_0 : ∀ a, (![0, 0] : Fin 2 → Nat) a + S128x8.size a ≤ S128x8.size a
  h_S128x8 : 0 < S128x8.numel
  inb_S1024x8_S1024x8_0_0 : ∀ a, (![0, 0] : Fin 2 → Nat) a + S1024x8.size a ≤ S1024x8.size a
  h_S1024x8 : 0 < S1024x8.numel
  packedbf16_S1024x8_S1024x8_0_0 : (Rect.unit (s := S1024x8) ![0, 0] S1024x8.size inb_S1024x8_S1024x8_0_0).PackedRows (EltTy.packing .bf16)
  shapeCasts_S8_S1x8 : S8.ShapeCasts S1x8
  shapeCasts_S1024x8_S1024x8 : S1024x8.ShapeCasts S1024x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  reduces_S1024x8_S1024 : S1024x8.Reduces [1] S1024
  shapeCasts_S1024_S1024x1 : S1024.ShapeCasts S1024x1
  broadcasts_S1024x1_S1024x8 : S1024x1.Broadcasts S1024x8
  dot_S16384x512_S512x128_S16384x128_1_0_0_1_n_n_wf : DotDims.WF S16384x512 S512x128 S16384x128 [1] [0] [0] [1] [] []
  dot_S1024x2048_S2048x128_S1024x128_1_0_0_1_n_n_wf : DotDims.WF S1024x2048 S2048x128 S1024x128 [1] [0] [0] [1] [] []
  dot_S1024x128_S128x8_S1024x8_1_0_0_1_n_n_wf : DotDims.WF S1024x128 S128x8 S1024x8 [1] [0] [0] [1] [] []
  dot_S1024x2048_S2048x8_S1024x8_1_0_0_1_n_n_wf : DotDims.WF S1024x2048 S2048x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S16384x8.size a
  hwx0_3 : ∀ i : grid0.Coords, EltTy.bits .bf16 = 32 ∨ (Rect.block (s := S16384x8) S1024x8.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S16384x8.size a
  hwx1_1 : ∀ i : grid1.Coords, EltTy.bits .bf16 = 32 ∨ (Rect.block (s := S16384x8) S2048x8.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x8.size a ≤ S16384x8.size a
  hwx1_3 : ∀ i : grid1.Coords, EltTy.bits .f32 = 32 ∨ (Rect.block (s := S16384x8) S1024x8.size (cc1_transform_3 i) (hinb1_3 i)).WholeWords (EltTy.packing .f32)

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x2048_S2048x8_S1024x8_1_0_0_1_n_n : DotDims S1024x2048 S2048x8 S1024x8 where
  lhsContracting := [1]
  rhsContracting := [0]
  lhsNonContracting := [0]
  rhsNonContracting := [1]
  lhsBatch := []
  rhsBatch := []
  wf := dot_S1024x2048_S2048x8_S1024x8_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S128x8 : Shape := ⟨2, ![128, 8]⟩
abbrev S8 : Shape := ⟨1, ![8]⟩
abbrev S16384x128 : Shape := ⟨2, ![16384, 128]⟩
abbrev S_ : Shape := ⟨0, ![]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S128x8, .f32⟩
  | .hbm, ⟨4, _⟩ => ⟨S8, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | .hbm, ⟨10, _⟩ => ⟨S16384x8, .f32⟩
  | .hbm, ⟨11, _⟩ => ⟨S16384x8, .f32⟩
  | .hbm, ⟨12, _⟩ => ⟨S1x8, .f32⟩
  | .hbm, ⟨13, _⟩ => ⟨S16384x8, .f32⟩
  | .hbm, ⟨14, _⟩ => ⟨S16384x8, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384x1, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x1, .f32⟩
  | .hbm, ⟨28, _⟩ => ⟨S16384x8, .f32⟩
  | .hbm, ⟨29, _⟩ => ⟨S16384x8, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_cst : Ref sig .tc := ⟨.hbm, 15, rfl⟩
abbrev main_call1_v0 : Ref sig .tc := ⟨.hbm, 16, rfl⟩
abbrev main_call1_cst_0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_cst_1 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_v8 : Ref sig .tc := ⟨.hbm, 29, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []
  dot_S16384x128_S128x8_S16384x8_1_0_0_1_n_n_wf : DotDims.WF S16384x128 S128x8 S16384x8 [1] [0] [0] [1] [] []
  dot_S16384x16384_S16384x8_S16384x8_1_0_0_1_n_n_wf : DotDims.WF S16384x16384 S16384x8 S16384x8 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def dot_S16384x16384_S16384x8_S16384x8_1_0_0_1_n_n : DotDims S16384x16384 S16384x8 S16384x8 where
  lhsContracting := [1]
  rhsContracting := [0]
  lhsNonContracting := [0]
  rhsNonContracting := [1]
  lhsBatch := []
  rhsBatch := []
  wf := dot_S16384x16384_S16384x8_S16384x8_1_0_0_1_n_n_wf

class Facts : Prop extends Facts₀ where

variable [Facts]
-- ==== Proof.KBits.R0Base.lean ====
/-
  Region 0 (the first graph-convolution kernel) on its 16 × 8 grid: the facts its frame proof is stated over.

  The grid's point t = 8·i + k handles row block i (1024 rows of the adjacency) and column block k (2048
  columns). The kernel keeps a 1024 × 128 accumulator in scratch across the eight points of a row block:
  it clears it where k = 0, adds the block product at every point, and where k = 7 stores
  max(acc, 0) · W2 into the output block of row block i. So the body has three control cases — the first
  point of a row block (A), an inner point (B), the last point (C) —, the output window is written only in
  case C and is idle (and not written back) elsewhere.

  Stated here, at any entry contents `V` of the core's buffers: each window's block at a point, that an input
  window's staging buffer holds that block whenever the body is called, the two branch conditions decided over
  the grid and where the output window is idle.
-/
import proofs.«139395_j953482740192_1_alg».proof.Proof.Gen.Kernel.Launch
import proofs.«139395_j953482740192_1_alg».proof.Proof.Gen.Kernel.Skeleton
import proofs.«139395_j953482740192_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the window of the first layer's features (fetched whenever the column block moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the second layer's weights, whose one block is fetched once, at the first point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- "This is the first column block" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points 8·i. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (k = 7). -/
abbrev cond0_1 (i : grid0.Coords) : Prop := k0_cond2 i = 1#1
/-- It holds exactly at the points 8·i + 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column block the output window is idle: the body stores nothing into it … -/
theorem idleAt0_3 : ∀ t : Fin cfg0.N, ¬cond0_1 (grid0.coords t) → cfg0.idle 3 (grid0.coords t) = true := by decide +kernel
/-- … and the pipeline does not write its block back there. -/
theorem noFlush0_3 : ∀ t : Fin cfg0.N, ¬cond0_1 (grid0.coords t) → (cfg0.win 3).flush t = false := by decide +kernel
/-- At the last column block the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x8 .bf16 := (Memref.whole cc0_stg3_0 : Memref sig .tc .vmem S1024x8 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x128 .f32 := Memref.whole cc0_scratch0
abbrev VS0 : View sig .tc .vmem S1024x128 .f32 := scM0.view

end Cert.Kernel.Hand

end
-- ==== Proof.KBits.R0RunA.lean ====
/-
  Region 0's kernel body run once, in control case A: the first point of a row block (k = 0, not the last column block). The body clears the accumulator, adds the block product, and stores nothing into the output window, which is handed back as found.
  The triple is proved by symbolic execution of the body's memory operations over its named payloads; the lists
  of pieces each buffer ends with are found by that run (they are the witness), so nothing the body computes is
  restated here.
-/
import proofs.«139395_j953482740192_1_alg».proof.Proof.KBits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (k = 0): on whole memrefs — the three inputs' at their contents, the idle output's at contents handed back
    untouched, the accumulator's at anything — the body runs to the continuation holding the inputs' and the output's
    as they were and the accumulator with the found pieces `LS0` written. -/
noncomputable def kernelRun0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x128 .bf16) (x2 : Vec F S128x8 .f32) :
    Σ' (L3 : List (View.Piece (Elt F) S1024x8 .bf16)), { LS0 : List (View.Piece (Elt F) S1024x128 .f32) //
      ∀ (xi3 : Vec F S1024x8 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨[], ?_, fun xi3 E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBits.R0RunB.lean ====
/-
  Region 0's kernel body run once, in control case B: an inner point of a row block (0 < k < 7). The body adds the block product to the accumulator it finds at what the point before left, and stores nothing into the output window.
  The triple is proved by symbolic execution of the body's memory operations over its named payloads; the lists
  of pieces each buffer ends with are found by that run (they are the witness), so nothing the body computes is
  restated here.
-/
import proofs.«139395_j953482740192_1_alg».proof.Proof.KBits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (0 < k < 7): as case A, the accumulator found at the contents `xs0` the point before left. -/
noncomputable def kernelRun0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x128 .bf16) (x2 : Vec F S128x8 .f32) (xs0 : Vec F S1024x128 .f32) :
    Σ' (L3 : List (View.Piece (Elt F) S1024x8 .bf16)), { LS0 : List (View.Piece (Elt F) S1024x128 .f32) //
      ∀ (xi3 : Vec F S1024x8 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨[], ?_, fun xi3 E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBits.R0RunC.lean ====
/-
  Region 0's kernel body run once, in control case C: the last point of a row block (k = 7). The body adds the block product to the accumulator it finds at what the point before left, then stores the positive part of the accumulator times the second layer's weights into the output window.
  The triple is proved by symbolic execution of the body's memory operations over its named payloads; the lists
  of pieces each buffer ends with are found by that run (they are the witness), so nothing the body computes is
  restated here.
-/
import proofs.«139395_j953482740192_1_alg».proof.Proof.KBits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (k = 7): the accumulator found at `xs0`, the output's memref at anything; the body leaves the inputs' as
    they were and the output's and the accumulator's with the found pieces `L3`, `LS0` written. -/
noncomputable def kernelRun0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x128 .bf16) (x2 : Vec F S128x8 .f32) (xs0 : Vec F S1024x128 .f32) :
    Σ' (L3 : List (View.Piece (Elt F) S1024x8 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨?_, ?_, fun E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KBits.R0Inv.lean ====
/-
  Region 0's invariant of the class, opened at the accumulator: the core's scoped buffers that are no staging
  buffer of this region are the accumulator and the second kernel's staging buffers and accumulator; the first is
  taken out as a memref owned at some contents, the others ride through the region untouched.
-/
import proofs.«139395_j953482740192_1_alg».proof.Proof.KBits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that region 0 neither stages through nor accumulates in (the second kernel's
    staging buffers and accumulator), each whole at some contents: they ride through region 0 untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's region invariant with the accumulator taken out as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.Kernel.Hand

end
-- ==== Proof.KBits.Region0.lean ====
/-
  Region 0 (the first graph-convolution kernel): what its output window's staging buffer and its accumulator hold
  after each grid point, the region invariant that carries the accumulator from point to point, the pipeline's
  proof data, and the body obligation at every point — at any entry contents `V` of the core's buffers.

  After point t = 8·i + k the accumulator holds what case A leaves at k = 0 and otherwise what cases B, C leave
  over the contents the point before left; the output's buffer holds what case C leaves at k = 7 (elsewhere the
  window is idle and its contents are not consulted). The invariant before point 0 is the class's (every scoped
  buffer at anything); before every later point it has the accumulator at what the point before left.
-/
import proofs.«139395_j953482740192_1_alg».proof.Proof.KBits.R0RunA
import proofs.«139395_j953482740192_1_alg».proof.Proof.KBits.R0RunB
import proofs.«139395_j953482740192_1_alg».proof.Proof.KBits.R0RunC
import proofs.«139395_j953482740192_1_alg».proof.Proof.KBits.R0Inv

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- Case A stores nothing into the output window: a placeholder nothing consults. -/
def out0_A_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) : Vec F S1024x8 .bf16 :=
  VO0_3.read (Elt F) (VO0_3.writes (Elt F) VO0_3.junk (kernelRun0_A c i arg2 harg2 arg3 harg3 arg4 harg4 arg5 harg5 arg6 harg6 hc0 hc1 x0 x1 x2).1)

/-- Case A's pieces for the accumulator cover it. -/
theorem scover0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) : Vec F S1024x128 .f32 :=
  VS0.read (Elt F) (VS0.writes (Elt F) VS0.junk (kernelRun0_A c i arg2 harg2 arg3 harg3 arg4 harg4 arg5 harg5 arg6 harg6 hc0 hc1 x0 x1 x2).2.1)

/-- Case B stores nothing into the output window: a placeholder nothing consults. -/
def out0_B_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) : Vec F S1024x8 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y

/-- What case B leaves in the accumulator. -/
def sout0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 hc0 hc1 x0 x1 x2 xs0).2.1)

/-- Case C's pieces for the output window cover its block. -/
theorem cover0_C_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) (y : S1024x8.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x8.size (by sl_kernel_rfl) y

/-- What case C leaves in the output window's staging buffer. -/
def out0_C_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) : Vec F S1024x8 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What case C leaves in the accumulator. -/
def sout0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 hc0 hc1 x0 x1 x2 xs0).2.1)

/-! ## What the output's buffer and the accumulator hold after each point -/

/-- After the body at position `n`: (the output window's staging buffer, the accumulator) — the case the position
    selects, run at the point's memrefs and input blocks, over the accumulator the point before left. -/
def outsAt0 (c : Dev nD) : (n : ℕ) → n < cfg0.N → Vec F S1024x8 .bf16 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a first point of a row block. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an inner point of a row block: over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a row block: over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` the class's invariant (every scoped buffer at anything); afterwards the
    accumulator at what the point before left, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which case the point is in; the
    invariant hands the body the accumulator at what the point before left (at anything at the very first point, and a
    first point of a later row block does not read it) and takes it back at this point's contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem Phi0_last (c : Dev nD) : (dat0 V c).Φ (Fin.last cfg0.N) ⊢ Pipeline.ΦA spec0 c :=
  Phi0_out V c _ (by rw [Fin.val_last]; have : cfg0.N = 128 := N_0; omega)

theorem Phi0_first (c : Dev nD) : (dat0 V c).Φ 0 = Pipeline.ΦA spec0 c := rfl

end Region0

end Cert.Kernel.Hand

end
-- ==== Proof.KBits.R1Base.lean ====
/-
  Region 1 (the second graph-convolution kernel) on its 16 × 8 grid: the facts its frame proof is stated over.

  The grid's point t = 8·i + k handles row block i (1024 rows of the adjacency) and column block k (2048
  columns). The kernel keeps a 1024 × 8 accumulator in scratch across the eight points of a row block:
  it clears it where k = 0, adds the block product at every point, and where k = 7 stores
  the row-wise log-softmax of acc + bias into the output block of row block i. So the body has three control cases — the first
  point of a row block (A), an inner point (B), the last point (C) —, the output window is written only in
  case C and is idle (and not written back) elsewhere.

  Stated here, at any entry contents `V` of the core's buffers: each window's block at a point, that an input
  window's staging buffer holds that block whenever the body is called, the two branch conditions decided over
  the grid and where the output window is idle.
-/
import proofs.«139395_j953482740192_1_alg».proof.Proof.Gen.Kernel.Launch
import proofs.«139395_j953482740192_1_alg».proof.Proof.Gen.Kernel.Skeleton
import proofs.«139395_j953482740192_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the window of the projected hidden layer (fetched whenever the column block moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row, whose one block is fetched once, at the first point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the first column block" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 8·i. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block" (k = 7). -/
abbrev cond1_1 (i : grid1.Coords) : Prop := k1_cond2 i = 1#1
/-- It holds exactly at the points 8·i + 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output window is idle: the body stores nothing into it … -/
theorem idleAt1_3 : ∀ t : Fin cfg1.N, ¬cond1_1 (grid1.coords t) → cfg1.idle 3 (grid1.coords t) = true := by decide +kernel
/-- … and the pipeline does not write its block back there. -/
theorem noFlush1_3 : ∀ t : Fin cfg1.N, ¬cond1_1 (grid1.coords t) → (cfg1.win 3).flush t = false := by decide +kernel
/-- At the last column block the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x8 .f32 := (Memref.whole cc1_stg3_0 : Memref sig .tc .vmem S1024x8 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x8 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x8 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x8 .f32 := Memref.whole cc1_scratch0
abbrev VS1 : View sig .tc .vmem S1024x8 .f32 := scM1.view

end Cert.Kernel.Hand

end
-- ==== Proof.KBits.R1RunA.lean ====
/-
  Region 1's kernel body run once, in control case A: the first point of a row block (k = 0, not the last column block). The body clears the accumulator, adds the block product, and stores nothing into the output window, which is handed back as found.
  The triple is proved by symbolic execution of the body's memory operations over its named payloads; the lists
  of pieces each buffer ends with are found by that run (they are the witness), so nothing the body computes is
  restated here.
-/
import proofs.«139395_j953482740192_1_alg».proof.Proof.KBits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (k = 0): on whole memrefs — the three inputs' at their contents, the idle output's at contents handed back
    untouched, the accumulator's at anything — the body runs to the continuation holding the inputs' and the output's
    as they were and the accumulator with the found pieces `LS0` written. -/
noncomputable def kernelRun1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i)
    (x0 : Vec F S1024x2048 .f32) (x1 : Vec F S2048x8 .bf16) (x2 : Vec F S1x8 .f32) :
    Σ' (L3 : List (View.Piece (Elt F) S1024x8 .f32)), { LS0 : List (View.Piece (Elt F) S1024x8 .f32) //
      ∀ (xi3 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨[], ?_, fun xi3 E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBits.R1RunB.lean ====
/-
  Region 1's kernel body run once, in control case B: an inner point of a row block (0 < k < 7). The body adds the block product to the accumulator it finds at what the point before left, and stores nothing into the output window.
  The triple is proved by symbolic execution of the body's memory operations over its named payloads; the lists
  of pieces each buffer ends with are found by that run (they are the witness), so nothing the body computes is
  restated here.
-/
import proofs.«139395_j953482740192_1_alg».proof.Proof.KBits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (0 < k < 7): as case A, the accumulator found at the contents `xs0` the point before left. -/
noncomputable def kernelRun1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i)
    (x0 : Vec F S1024x2048 .f32) (x1 : Vec F S2048x8 .bf16) (x2 : Vec F S1x8 .f32) (xs0 : Vec F S1024x8 .f32) :
    Σ' (L3 : List (View.Piece (Elt F) S1024x8 .f32)), { LS0 : List (View.Piece (Elt F) S1024x8 .f32) //
      ∀ (xi3 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨[], ?_, fun xi3 E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBits.R1RunC.lean ====
/-
  Region 1's kernel body run once, in control case C: the last point of a row block (k = 7). The body adds the block product to the accumulator it finds at what the point before left, then stores the row-wise log-softmax of the accumulator plus the bias row into the output window.
  The triple is proved by symbolic execution of the body's memory operations over its named payloads; the lists
  of pieces each buffer ends with are found by that run (they are the witness), so nothing the body computes is
  restated here.
-/
import proofs.«139395_j953482740192_1_alg».proof.Proof.KBits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (k = 7): the accumulator found at `xs0`, the output's memref at anything; the body leaves the inputs' as
    they were and the output's and the accumulator's with the found pieces `L3`, `LS0` written. -/
noncomputable def kernelRun1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i)
    (x0 : Vec F S1024x2048 .f32) (x1 : Vec F S2048x8 .bf16) (x2 : Vec F S1x8 .f32) (xs0 : Vec F S1024x8 .f32) :
    Σ' (L3 : List (View.Piece (Elt F) S1024x8 .f32)), { LS0 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨?_, ?_, fun E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KBits.R1Inv.lean ====
/-
  Region 1's invariant of the class, opened at the accumulator: the core's scoped buffers that are no staging
  buffer of this region are the first kernel's staging buffers and accumulator and this kernel's accumulator; the
  last is taken out as a memref owned at some contents, the others ride through the region untouched.
-/
import proofs.«139395_j953482740192_1_alg».proof.Proof.KBits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that region 1 neither stages through nor accumulates in (the first kernel's
    staging buffers and accumulator), each whole at some contents: they ride through region 1 untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant with the accumulator taken out as a memref owned at some contents (here the
    accumulator is the last of the scoped buffers, so the conjuncts are reordered). -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA rest1; rw [scopedRest1_eq]; simp only [scM1, owns_whole]
  refine Entails.antisymm ?_ ?_
  · show (_ : sProp 𝕄) ⊢ _
    iintro ⟨⟨R1, R2, R3, R4, R5, R6, R7, R8, HS⟩, Hg⟩
    isplitr [Hg]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact Hg
  · show (_ : sProp 𝕄) ⊢ _
    iintro ⟨⟨HS, R1, R2, R3, R4, R5, R6, R7, R8⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    iexact Hg

end Cert.Kernel.Hand

end
-- ==== Proof.KBits.Region1.lean ====
/-
  Region 1 (the second graph-convolution kernel): what its output window's staging buffer and its accumulator hold
  after each grid point, the region invariant that carries the accumulator from point to point, the pipeline's
  proof data, and the body obligation at every point — at any entry contents `V` of the core's buffers.

  After point t = 8·i + k the accumulator holds what case A leaves at k = 0 and otherwise what cases B, C leave
  over the contents the point before left; the output's buffer holds what case C leaves at k = 7 (elsewhere the
  window is idle and its contents are not consulted). The invariant before point 0 is the class's (every scoped
  buffer at anything); before every later point it has the accumulator at what the point before left.
-/
import proofs.«139395_j953482740192_1_alg».proof.Proof.KBits.R1RunA
import proofs.«139395_j953482740192_1_alg».proof.Proof.KBits.R1RunB
import proofs.«139395_j953482740192_1_alg».proof.Proof.KBits.R1RunC
import proofs.«139395_j953482740192_1_alg».proof.Proof.KBits.R1Inv

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- Case A stores nothing into the output window: a placeholder nothing consults. -/
def out1_A_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) : Vec F S1024x8 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) (y : S1024x8.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x8.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) : Vec F S1024x8 .f32 :=
  VS1.read (Elt F) (VS1.writes (Elt F) VS1.junk (kernelRun1_A c i arg2 harg2 arg3 harg3 arg4 harg4 arg5 harg5 arg6 harg6 hc0 hc1 x0 x1 x2).2.1)

/-- Case B stores nothing into the output window: a placeholder nothing consults. -/
def out1_B_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) : Vec F S1024x8 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) (y : S1024x8.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x8.size (by sl_kernel_rfl) y

/-- What case B leaves in the accumulator. -/
def sout1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) : Vec F S1024x8 .f32 :=
  VS1.read (Elt F) (VS1.writes (Elt F) VS1.junk (kernelRun1_B c i arg2 harg2 arg3 harg3 arg4 harg4 arg5 harg5 arg6 harg6 hc0 hc1 x0 x1 x2 xs0).2.1)

/-- Case C's pieces for the output window cover its block. -/
theorem cover1_C_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) (y : S1024x8.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x8.size (by sl_kernel_rfl) y

/-- What case C leaves in the output window's staging buffer. -/
def out1_C_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) : Vec F S1024x8 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) (y : S1024x8.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x8.size (by sl_kernel_rfl) y

/-- What case C leaves in the accumulator. -/
def sout1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) : Vec F S1024x8 .f32 :=
  VS1.read (Elt F) (VS1.writes (Elt F) VS1.junk (kernelRun1_C c i arg2 harg2 arg3 harg3 arg4 harg4 arg5 harg5 arg6 harg6 hc0 hc1 x0 x1 x2 xs0).2.1)

/-! ## What the output's buffer and the accumulator hold after each point -/

/-- After the body at position `n`: (the output window's staging buffer, the accumulator) — the case the position
    selects, run at the point's memrefs and input blocks, over the accumulator the point before left. -/
def outsAt1 (c : Dev nD) : (n : ℕ) → n < cfg1.N → Vec F S1024x8 .f32 × Vec F S1024x8 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of a row block. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner point of a row block: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of a row block: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` the class's invariant (every scoped buffer at anything); afterwards the
    accumulator at what the point before left, the other scoped buffers at anything, the generator register at some
    state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which case the point is in; the
    invariant hands the body the accumulator at what the point before left (at anything at the very first point, and a
    first point of a later row block does not read it) and takes it back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem Phi1_last (c : Dev nD) : (dat1 V c).Φ (Fin.last cfg1.N) ⊢ Pipeline.ΦA spec1 c :=
  Phi1_out V c _ (by rw [Fin.val_last]; have : cfg1.N = 128 := N_1; omega)

theorem Phi1_first (c : Dev nD) : (dat1 V c).Φ 0 = Pipeline.ΦA spec1 c := rfl

end Region1

end Cert.Kernel.Hand

end
-- ==== Proof.KBits.Frame.lean ====
/-
  The run of the whole program: @main is a stretch of host operations (the feature product and its change of
  format), the first kernel region, one more host operation (the bias as a row), the second kernel region.

  The buffers' contents at the four boundaries are a fold from the launch memory: a host stretch applies its
  operations; a region leaves its arrays at what its write-backs leave and every other buffer as entered. Each
  region is a segment entered from "every unscoped buffer at the boundary's contents, the generator register at
  some state, nothing owed" and left at the same with the next contents. The conclusion reads the last contents
  off the final state: the result array at what the second region's pipeline leaves, every argument as launched
  (no host operation writes one; a region only reads it through an input window or does not touch it).
-/
import proofs.«139395_j953482740192_1_alg».proof.Proof.KBits.Region0
import proofs.«139395_j953482740192_1_alg».proof.Proof.KBits.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment of @main: entered from every unscoped buffer at the contents before it, left at the
    contents after it. Its arrays are split out of the unscoped buffers and put back at the exit contents; the generator
    register and the scoped buffers enter the invariant and come back out of it; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Phi0_last (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered from every unscoped buffer at the contents before it, left at the
    contents after it. Its arrays are split out of the unscoped buffers and put back at the exit contents; the generator
    register and the scoped buffers enter the invariant and come back out of it; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from Phi1_last (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state has the result array at what the second region's pipeline leaves in it and every argument array as
    launched. -/
theorem run_main : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KIdeal.R0Base.lean ====
/-
  Region 0 (the first graph-convolution kernel) on its 16 × 8 grid: the facts its frame proof is stated over.

  The grid's point t = 8·i + k handles row block i (1024 rows of the adjacency) and column block k (2048
  columns). The kernel keeps a 1024 × 128 accumulator in scratch across the eight points of a row block:
  it clears it where k = 0, adds the block product at every point, and where k = 7 stores
  max(acc, 0) · W2 into the output block of row block i. So the body has three control cases — the first
  point of a row block (A), an inner point (B), the last point (C) —, the output window is written only in
  case C and is idle (and not written back) elsewhere.

  Stated here, at any entry contents `V` of the core's buffers: each window's block at a point, that an input
  window's staging buffer holds that block whenever the body is called, the two branch conditions decided over
  the grid and where the output window is idle.
-/
import proofs.«139395_j953482740192_1_alg».proof.Proof.Gen.KernelIdeal.Launch
import proofs.«139395_j953482740192_1_alg».proof.Proof.Gen.KernelIdeal.Skeleton
import proofs.«139395_j953482740192_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the window of the first layer's features (fetched whenever the column block moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the second layer's weights, whose one block is fetched once, at the first point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- "This is the first column block" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points 8·i. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (k = 7). -/
abbrev cond0_1 (i : grid0.Coords) : Prop := k0_cond2 i = 1#1
/-- It holds exactly at the points 8·i + 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column block the output window is idle: the body stores nothing into it … -/
theorem idleAt0_3 : ∀ t : Fin cfg0.N, ¬cond0_1 (grid0.coords t) → cfg0.idle 3 (grid0.coords t) = true := by decide +kernel
/-- … and the pipeline does not write its block back there. -/
theorem noFlush0_3 : ∀ t : Fin cfg0.N, ¬cond0_1 (grid0.coords t) → (cfg0.win 3).flush t = false := by decide +kernel
/-- At the last column block the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x8 .bf16 := (Memref.whole cc0_stg3_0 : Memref sig .tc .vmem S1024x8 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x128 .f32 := Memref.whole cc0_scratch0
abbrev VS0 : View sig .tc .vmem S1024x128 .f32 := scM0.view

end Cert.KernelIdeal.Hand

end
-- ==== Proof.KIdeal.R0RunA.lean ====
/-
  Region 0's kernel body run once, in control case A: the first point of a row block (k = 0, not the last column block). The body clears the accumulator, adds the block product, and stores nothing into the output window, which is handed back as found.
  The triple is proved by symbolic execution of the body's memory operations over its named payloads; the lists
  of pieces each buffer ends with are found by that run (they are the witness), so nothing the body computes is
  restated here.
-/
import proofs.«139395_j953482740192_1_alg».proof.Proof.KIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (k = 0): on whole memrefs — the three inputs' at their contents, the idle output's at contents handed back
    untouched, the accumulator's at anything — the body runs to the continuation holding the inputs' and the output's
    as they were and the accumulator with the found pieces `LS0` written. -/
noncomputable def kernelRun0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x128 .bf16) (x2 : Vec F S128x8 .f32) :
    Σ' (L3 : List (View.Piece (Elt F) S1024x8 .bf16)), { LS0 : List (View.Piece (Elt F) S1024x128 .f32) //
      ∀ (xi3 : Vec F S1024x8 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨[], ?_, fun xi3 E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIdeal.R0RunB.lean ====
/-
  Region 0's kernel body run once, in control case B: an inner point of a row block (0 < k < 7). The body adds the block product to the accumulator it finds at what the point before left, and stores nothing into the output window.
  The triple is proved by symbolic execution of the body's memory operations over its named payloads; the lists
  of pieces each buffer ends with are found by that run (they are the witness), so nothing the body computes is
  restated here.
-/
import proofs.«139395_j953482740192_1_alg».proof.Proof.KIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (0 < k < 7): as case A, the accumulator found at the contents `xs0` the point before left. -/
noncomputable def kernelRun0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x128 .bf16) (x2 : Vec F S128x8 .f32) (xs0 : Vec F S1024x128 .f32) :
    Σ' (L3 : List (View.Piece (Elt F) S1024x8 .bf16)), { LS0 : List (View.Piece (Elt F) S1024x128 .f32) //
      ∀ (xi3 : Vec F S1024x8 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨[], ?_, fun xi3 E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIdeal.R0RunC.lean ====
/-
  Region 0's kernel body run once, in control case C: the last point of a row block (k = 7). The body adds the block product to the accumulator it finds at what the point before left, then stores the positive part of the accumulator times the second layer's weights into the output window.
  The triple is proved by symbolic execution of the body's memory operations over its named payloads; the lists
  of pieces each buffer ends with are found by that run (they are the witness), so nothing the body computes is
  restated here.
-/
import proofs.«139395_j953482740192_1_alg».proof.Proof.KIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (k = 7): the accumulator found at `xs0`, the output's memref at anything; the body leaves the inputs' as
    they were and the output's and the accumulator's with the found pieces `L3`, `LS0` written. -/
noncomputable def kernelRun0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x128 .bf16) (x2 : Vec F S128x8 .f32) (xs0 : Vec F S1024x128 .f32) :
    Σ' (L3 : List (View.Piece (Elt F) S1024x8 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gconv1_kernel i arg2 harg2 arg3 harg3 arg4 harg4 arg5 harg5 arg6 harg6) K } := by
  refine ⟨?_, ?_, fun E K => ?run⟩
  case run =>
    simp only [cc0__gconv1_kernel_eq_skeleton]; unfold cc0__gconv1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIdeal.R0Inv.lean ====
/-
  Region 0's invariant of the class, opened at the accumulator: the core's scoped buffers that are no staging
  buffer of this region are the accumulator and the second kernel's staging buffers and accumulator; the first is
  taken out as a memref owned at some contents, the others ride through the region untouched.
-/
import proofs.«139395_j953482740192_1_alg».proof.Proof.KIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that region 0 neither stages through nor accumulates in (the second kernel's
    staging buffers and accumulator), each whole at some contents: they ride through region 0 untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's region invariant with the accumulator taken out as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.KernelIdeal.Hand

end
-- ==== Proof.KIdeal.Region0.lean ====
/-
  Region 0 (the first graph-convolution kernel): what its output window's staging buffer and its accumulator hold
  after each grid point, the region invariant that carries the accumulator from point to point, the pipeline's
  proof data, and the body obligation at every point — at any entry contents `V` of the core's buffers.

  After point t = 8·i + k the accumulator holds what case A leaves at k = 0 and otherwise what cases B, C leave
  over the contents the point before left; the output's buffer holds what case C leaves at k = 7 (elsewhere the
  window is idle and its contents are not consulted). The invariant before point 0 is the class's (every scoped
  buffer at anything); before every later point it has the accumulator at what the point before left.
-/
import proofs.«139395_j953482740192_1_alg».proof.Proof.KIdeal.R0RunA
import proofs.«139395_j953482740192_1_alg».proof.Proof.KIdeal.R0RunB
import proofs.«139395_j953482740192_1_alg».proof.Proof.KIdeal.R0RunC
import proofs.«139395_j953482740192_1_alg».proof.Proof.KIdeal.R0Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- Case A stores nothing into the output window: a placeholder nothing consults. -/
def out0_A_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) : Vec F S1024x8 .bf16 :=
  VO0_3.read (Elt F) (VO0_3.writes (Elt F) VO0_3.junk (kernelRun0_A c i arg2 harg2 arg3 harg3 arg4 harg4 arg5 harg5 arg6 harg6 hc0 hc1 x0 x1 x2).1)

/-- Case A's pieces for the accumulator cover it. -/
theorem scover0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) : Vec F S1024x128 .f32 :=
  VS0.read (Elt F) (VS0.writes (Elt F) VS0.junk (kernelRun0_A c i arg2 harg2 arg3 harg3 arg4 harg4 arg5 harg5 arg6 harg6 hc0 hc1 x0 x1 x2).2.1)

/-- Case B stores nothing into the output window: a placeholder nothing consults. -/
def out0_B_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) : Vec F S1024x8 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y

/-- What case B leaves in the accumulator. -/
def sout0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 hc0 hc1 x0 x1 x2 xs0).2.1)

/-- Case C's pieces for the output window cover its block. -/
theorem cover0_C_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) (y : S1024x8.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x8.size (by sl_kernel_rfl) y

/-- What case C leaves in the output window's staging buffer. -/
def out0_C_3 (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) : Vec F S1024x8 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What case C leaves in the accumulator. -/
def sout0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 hc0 hc1 x0 x1 x2 xs0).2.1)

/-! ## What the output's buffer and the accumulator hold after each point -/

/-- After the body at position `n`: (the output window's staging buffer, the accumulator) — the case the position
    selects, run at the point's memrefs and input blocks, over the accumulator the point before left. -/
def outsAt0 (c : Dev nD) : (n : ℕ) → n < cfg0.N → Vec F S1024x8 .bf16 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a first point of a row block. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an inner point of a row block: over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a row block: over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` the class's invariant (every scoped buffer at anything); afterwards the
    accumulator at what the point before left, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which case the point is in; the
    invariant hands the body the accumulator at what the point before left (at anything at the very first point, and a
    first point of a later row block does not read it) and takes it back at this point's contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem Phi0_last (c : Dev nD) : (dat0 V c).Φ (Fin.last cfg0.N) ⊢ Pipeline.ΦA spec0 c :=
  Phi0_out V c _ (by rw [Fin.val_last]; have : cfg0.N = 128 := N_0; omega)

theorem Phi0_first (c : Dev nD) : (dat0 V c).Φ 0 = Pipeline.ΦA spec0 c := rfl

end Region0

end Cert.KernelIdeal.Hand

end
-- ==== Proof.KIdeal.R1Base.lean ====
/-
  Region 1 (the second graph-convolution kernel) on its 16 × 8 grid: the facts its frame proof is stated over.

  The grid's point t = 8·i + k handles row block i (1024 rows of the adjacency) and column block k (2048
  columns). The kernel keeps a 1024 × 8 accumulator in scratch across the eight points of a row block:
  it clears it where k = 0, adds the block product at every point, and where k = 7 stores
  the row-wise log-softmax of acc + bias into the output block of row block i. So the body has three control cases — the first
  point of a row block (A), an inner point (B), the last point (C) —, the output window is written only in
  case C and is idle (and not written back) elsewhere.

  Stated here, at any entry contents `V` of the core's buffers: each window's block at a point, that an input
  window's staging buffer holds that block whenever the body is called, the two branch conditions decided over
  the grid and where the output window is idle.
-/
import proofs.«139395_j953482740192_1_alg».proof.Proof.Gen.KernelIdeal.Launch
import proofs.«139395_j953482740192_1_alg».proof.Proof.Gen.KernelIdeal.Skeleton
import proofs.«139395_j953482740192_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the window of the projected hidden layer (fetched whenever the column block moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row, whose one block is fetched once, at the first point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the first column block" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 8·i. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block" (k = 7). -/
abbrev cond1_1 (i : grid1.Coords) : Prop := k1_cond2 i = 1#1
/-- It holds exactly at the points 8·i + 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column block the output window is idle: the body stores nothing into it … -/
theorem idleAt1_3 : ∀ t : Fin cfg1.N, ¬cond1_1 (grid1.coords t) → cfg1.idle 3 (grid1.coords t) = true := by decide +kernel
/-- … and the pipeline does not write its block back there. -/
theorem noFlush1_3 : ∀ t : Fin cfg1.N, ¬cond1_1 (grid1.coords t) → (cfg1.win 3).flush t = false := by decide +kernel
/-- At the last column block the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x8 .f32 := (Memref.whole cc1_stg3_0 : Memref sig .tc .vmem S1024x8 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x8 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x8 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x8 .f32 := Memref.whole cc1_scratch0
abbrev VS1 : View sig .tc .vmem S1024x8 .f32 := scM1.view

end Cert.KernelIdeal.Hand

end
-- ==== Proof.KIdeal.R1RunA.lean ====
/-
  Region 1's kernel body run once, in control case A: the first point of a row block (k = 0, not the last column block). The body clears the accumulator, adds the block product, and stores nothing into the output window, which is handed back as found.
  The triple is proved by symbolic execution of the body's memory operations over its named payloads; the lists
  of pieces each buffer ends with are found by that run (they are the witness), so nothing the body computes is
  restated here.
-/
import proofs.«139395_j953482740192_1_alg».proof.Proof.KIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (k = 0): on whole memrefs — the three inputs' at their contents, the idle output's at contents handed back
    untouched, the accumulator's at anything — the body runs to the continuation holding the inputs' and the output's
    as they were and the accumulator with the found pieces `LS0` written. -/
noncomputable def kernelRun1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i)
    (x0 : Vec F S1024x2048 .f32) (x1 : Vec F S2048x8 .bf16) (x2 : Vec F S1x8 .f32) :
    Σ' (L3 : List (View.Piece (Elt F) S1024x8 .f32)), { LS0 : List (View.Piece (Elt F) S1024x8 .f32) //
      ∀ (xi3 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨[], ?_, fun xi3 E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIdeal.R1RunB.lean ====
/-
  Region 1's kernel body run once, in control case B: an inner point of a row block (0 < k < 7). The body adds the block product to the accumulator it finds at what the point before left, and stores nothing into the output window.
  The triple is proved by symbolic execution of the body's memory operations over its named payloads; the lists
  of pieces each buffer ends with are found by that run (they are the witness), so nothing the body computes is
  restated here.
-/
import proofs.«139395_j953482740192_1_alg».proof.Proof.KIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (0 < k < 7): as case A, the accumulator found at the contents `xs0` the point before left. -/
noncomputable def kernelRun1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i)
    (x0 : Vec F S1024x2048 .f32) (x1 : Vec F S2048x8 .bf16) (x2 : Vec F S1x8 .f32) (xs0 : Vec F S1024x8 .f32) :
    Σ' (L3 : List (View.Piece (Elt F) S1024x8 .f32)), { LS0 : List (View.Piece (Elt F) S1024x8 .f32) //
      ∀ (xi3 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨[], ?_, fun xi3 E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIdeal.R1RunC.lean ====
/-
  Region 1's kernel body run once, in control case C: the last point of a row block (k = 7). The body adds the block product to the accumulator it finds at what the point before left, then stores the row-wise log-softmax of the accumulator plus the bias row into the output window.
  The triple is proved by symbolic execution of the body's memory operations over its named payloads; the lists
  of pieces each buffer ends with are found by that run (they are the witness), so nothing the body computes is
  restated here.
-/
import proofs.«139395_j953482740192_1_alg».proof.Proof.KIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (k = 7): the accumulator found at `xs0`, the output's memref at anything; the body leaves the inputs' as
    they were and the output's and the accumulator's with the found pieces `L3`, `LS0` written. -/
noncomputable def kernelRun1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i)
    (x0 : Vec F S1024x2048 .f32) (x1 : Vec F S2048x8 .bf16) (x2 : Vec F S1x8 .f32) (xs0 : Vec F S1024x8 .f32) :
    Σ' (L3 : List (View.Piece (Elt F) S1024x8 .f32)), { LS0 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gconv2_kernel i arg2 harg2 arg3 harg3 arg4 harg4 arg5 harg5 arg6 harg6) K } := by
  refine ⟨?_, ?_, fun E K => ?run⟩
  case run =>
    simp only [cc1__gconv2_kernel_eq_skeleton]; unfold cc1__gconv2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIdeal.R1Inv.lean ====
/-
  Region 1's invariant of the class, opened at the accumulator: the core's scoped buffers that are no staging
  buffer of this region are the first kernel's staging buffers and accumulator and this kernel's accumulator; the
  last is taken out as a memref owned at some contents, the others ride through the region untouched.
-/
import proofs.«139395_j953482740192_1_alg».proof.Proof.KIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that region 1 neither stages through nor accumulates in (the first kernel's
    staging buffers and accumulator), each whole at some contents: they ride through region 1 untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant with the accumulator taken out as a memref owned at some contents (here the
    accumulator is the last of the scoped buffers, so the conjuncts are reordered). -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA rest1; rw [scopedRest1_eq]; simp only [scM1, owns_whole]
  refine Entails.antisymm ?_ ?_
  · show (_ : sProp 𝕄) ⊢ _
    iintro ⟨⟨R1, R2, R3, R4, R5, R6, R7, R8, HS⟩, Hg⟩
    isplitr [Hg]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact Hg
  · show (_ : sProp 𝕄) ⊢ _
    iintro ⟨⟨HS, R1, R2, R3, R4, R5, R6, R7, R8⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    iexact Hg

end Cert.KernelIdeal.Hand

end
-- ==== Proof.KIdeal.Region1.lean ====
/-
  Region 1 (the second graph-convolution kernel): what its output window's staging buffer and its accumulator hold
  after each grid point, the region invariant that carries the accumulator from point to point, the pipeline's
  proof data, and the body obligation at every point — at any entry contents `V` of the core's buffers.

  After point t = 8·i + k the accumulator holds what case A leaves at k = 0 and otherwise what cases B, C leave
  over the contents the point before left; the output's buffer holds what case C leaves at k = 7 (elsewhere the
  window is idle and its contents are not consulted). The invariant before point 0 is the class's (every scoped
  buffer at anything); before every later point it has the accumulator at what the point before left.
-/
import proofs.«139395_j953482740192_1_alg».proof.Proof.KIdeal.R1RunA
import proofs.«139395_j953482740192_1_alg».proof.Proof.KIdeal.R1RunB
import proofs.«139395_j953482740192_1_alg».proof.Proof.KIdeal.R1RunC
import proofs.«139395_j953482740192_1_alg».proof.Proof.KIdeal.R1Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- Case A stores nothing into the output window: a placeholder nothing consults. -/
def out1_A_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) : Vec F S1024x8 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) (y : S1024x8.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x8.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) : Vec F S1024x8 .f32 :=
  VS1.read (Elt F) (VS1.writes (Elt F) VS1.junk (kernelRun1_A c i arg2 harg2 arg3 harg3 arg4 harg4 arg5 harg5 arg6 harg6 hc0 hc1 x0 x1 x2).2.1)

/-- Case B stores nothing into the output window: a placeholder nothing consults. -/
def out1_B_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) : Vec F S1024x8 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) (y : S1024x8.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x8.size (by sl_kernel_rfl) y

/-- What case B leaves in the accumulator. -/
def sout1_B (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) : Vec F S1024x8 .f32 :=
  VS1.read (Elt F) (VS1.writes (Elt F) VS1.junk (kernelRun1_B c i arg2 harg2 arg3 harg3 arg4 harg4 arg5 harg5 arg6 harg6 hc0 hc1 x0 x1 x2 xs0).2.1)

/-- Case C's pieces for the output window cover its block. -/
theorem cover1_C_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) (y : S1024x8.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x8.size (by sl_kernel_rfl) y

/-- What case C leaves in the output window's staging buffer. -/
def out1_C_3 (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) : Vec F S1024x8 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) (y : S1024x8.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x8.size (by sl_kernel_rfl) y

/-- What case C leaves in the accumulator. -/
def sout1_C (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) : Vec F S1024x8 .f32 :=
  VS1.read (Elt F) (VS1.writes (Elt F) VS1.junk (kernelRun1_C c i arg2 harg2 arg3 harg3 arg4 harg4 arg5 harg5 arg6 harg6 hc0 hc1 x0 x1 x2 xs0).2.1)

/-! ## What the output's buffer and the accumulator hold after each point -/

/-- After the body at position `n`: (the output window's staging buffer, the accumulator) — the case the position
    selects, run at the point's memrefs and input blocks, over the accumulator the point before left. -/
def outsAt1 (c : Dev nD) : (n : ℕ) → n < cfg1.N → Vec F S1024x8 .f32 × Vec F S1024x8 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of a row block. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner point of a row block: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of a row block: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` the class's invariant (every scoped buffer at anything); afterwards the
    accumulator at what the point before left, the other scoped buffers at anything, the generator register at some
    state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which case the point is in; the
    invariant hands the body the accumulator at what the point before left (at anything at the very first point, and a
    first point of a later row block does not read it) and takes it back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem Phi1_last (c : Dev nD) : (dat1 V c).Φ (Fin.last cfg1.N) ⊢ Pipeline.ΦA spec1 c :=
  Phi1_out V c _ (by rw [Fin.val_last]; have : cfg1.N = 128 := N_1; omega)

theorem Phi1_first (c : Dev nD) : (dat1 V c).Φ 0 = Pipeline.ΦA spec1 c := rfl

end Region1

end Cert.KernelIdeal.Hand

end
-- ==== Proof.KIdeal.Frame.lean ====
/-
  The run of the whole program: @main is a stretch of host operations (the feature product and its change of
  format), the first kernel region, one more host operation (the bias as a row), the second kernel region.

  The buffers' contents at the four boundaries are a fold from the launch memory: a host stretch applies its
  operations; a region leaves its arrays at what its write-backs leave and every other buffer as entered. Each
  region is a segment entered from "every unscoped buffer at the boundary's contents, the generator register at
  some state, nothing owed" and left at the same with the next contents. The conclusion reads the last contents
  off the final state: the result array at what the second region's pipeline leaves, every argument as launched
  (no host operation writes one; a region only reads it through an input window or does not touch it).
-/
import proofs.«139395_j953482740192_1_alg».proof.Proof.KIdeal.Region0
import proofs.«139395_j953482740192_1_alg».proof.Proof.KIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment of @main: entered from every unscoped buffer at the contents before it, left at the
    contents after it. Its arrays are split out of the unscoped buffers and put back at the exit contents; the generator
    register and the scoped buffers enter the invariant and come back out of it; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Phi0_last (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered from every unscoped buffer at the contents before it, left at the
    contents after it. Its arrays are split out of the unscoped buffers and put back at the exit contents; the generator
    register and the scoped buffers enter the invariant and come back out of it; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from Phi1_last (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state has the result array at what the second region's pipeline leaves in it and every argument array as
    launched. -/
theorem run_main : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.Spec.lean ====
/-
  The function both programs compute, over the extended reals, as one term of the five argument arrays.

  A two-layer graph convolution followed by a row-wise log-softmax. With `adj` the n×n adjacency (n = 16384),
  `x` the n×512 features, `W1` (512×128), `W2` (128×8) and the bias `b2` (8):

      feat   = x · W1                       (n×128)
      hidden = max (adj · feat) 0           (n×128)
      proj   = hidden · W2                  (n×8)
      logit  = adj · proj + b2              (n×8, the bias along each row)
      out    = (logit − M) − log (Σ_j exp (logit − M)),   M the row's maximum (taken from −∞ upwards)

  Every matrix product is the plain sum over the contracted index; nothing here depends on how a program
  groups or orders those sums.
-/
import Idealize.ShloMosaic.PureOps.Ideal
import Idealize.ShloMosaic.Lib.ValueIdx

noncomputable section

namespace Cert.Spec

open Idealize.ShloMosaic Idealize.ShloMosaic.ValueIdx

variable (x : Fin 16384 → Fin 512 → EReal) (adj : Fin 16384 → Fin 16384 → EReal)
  (W1 : Fin 512 → Fin 128 → EReal) (W2 : Fin 128 → Fin 8 → EReal) (b2 : Fin 8 → EReal)

/-- The first layer's features: `x · W1` at row `n`, column `h`. -/
def feat (n : Fin 16384) (h : Fin 128) : EReal := ∑ f : Fin 512, x n f * W1 f h

/-- The hidden layer: the adjacency applied to the features, then the positive part (against the f32 zero). -/
def hidden (n : Fin 16384) (h : Fin 128) : EReal :=
  max (∑ k : Fin 16384, adj n k * feat x W1 k h) (Ideal.ofBits .f32 0x00000000#32)

/-- The hidden layer projected to the classes: `hidden · W2`. -/
def proj (n : Fin 16384) (j : Fin 8) : EReal := ∑ h : Fin 128, hidden x adj W1 n h * W2 h j

/-- The logits: the adjacency applied to the projection, plus the bias of the class. -/
def logit (n : Fin 16384) (j : Fin 8) : EReal := (∑ k : Fin 16384, adj n k * proj x adj W1 W2 k j) + b2 j

/-- A row's maximum: the fold of `max` over the eight classes from −∞ (the f32 pattern of −∞), taken once more
    against −∞ as both programs do. -/
def rowMax (n : Fin 16384) : EReal :=
  max (Ideal.ofBits .f32 0xFF800000#32)
    ((Finset.univ : Finset (Fin 8)).fold max (Ideal.ofBits .f32 0xFF800000#32) (fun j => logit x adj W1 W2 b2 n j))

/-- The shifted logit. -/
def shifted (n : Fin 16384) (j : Fin 8) : EReal := logit x adj W1 W2 b2 n j - rowMax x adj W1 W2 b2 n

/-- The row-wise log-softmax of the logits. -/
def logSoftmax (n : Fin 16384) (j : Fin 8) : EReal :=
  shifted x adj W1 W2 b2 n j - Ideal.log (∑ j' : Fin 8, Ideal.exp (shifted x adj W1 W2 b2 n j'))

end Cert.Spec

namespace Cert.Spec

open Idealize.ShloMosaic Idealize.ShloMosaic.ValueIdx

/-- The result array as one function of the five argument arrays, index by index. -/
def Gout (X : (⟨2, ![16384, 512]⟩ : Shape).Idx → EReal) (A : (⟨2, ![16384, 16384]⟩ : Shape).Idx → EReal)
    (W1 : (⟨2, ![512, 128]⟩ : Shape).Idx → EReal) (W2 : (⟨2, ![128, 8]⟩ : Shape).Idx → EReal)
    (B : (⟨1, ![8]⟩ : Shape).Idx → EReal) : (⟨2, ![16384, 8]⟩ : Shape).Idx → EReal :=
  fun i => logSoftmax (fun n f => X (ix2 n f)) (fun n k => A (ix2 n k)) (fun f h => W1 (ix2 f h))
    (fun h j => W2 (ix2 h j)) (fun j => B (ix1 j)) (i 0) (i 1)

end Cert.Spec

end
-- ==== Proof.RefIsG1.lean ====
/-
  The reference's stages up to the logits, read at a row and a column.

  Each of the reference's four matrix products is, at an entry, the plain sum over the contracted index of the
  operands' products; the positive part is the maximum against the f32 zero; the bias is read at the column.
  Stage by stage the entries are the specification's `feat`, `hidden`, `proj` and `logit` of the five argument
  arrays read through their coordinates.
-/
import proofs.«139395_j953482740192_1_alg».proof.Proof.RefReadP
import proofs.«139395_j953482740192_1_alg».proof.Proof.Spec

noncomputable section

namespace Cert.RefSpec

open Cert.ReferenceIdeal Cert.ReferenceIdeal.Gen Cert.ReferenceIdeal.ReadP Idealize.ShloMosaic Idealize.ShloMosaic.ValueIdx

variable (x0 : (⟨S16384x512, .f32⟩ : BufTy).Contents (Elt Ideal)) (x1 : (⟨S16384x16384, .f32⟩ : BufTy).Contents (Elt Ideal))
  (x2 : (⟨S512x128, .f32⟩ : BufTy).Contents (Elt Ideal)) (x3 : (⟨S128x8, .f32⟩ : BufTy).Contents (Elt Ideal))
  (x4 : (⟨S8, .f32⟩ : BufTy).Contents (Elt Ideal))

/-- The features by node and feature coordinate. -/
abbrev cX : Fin 16384 → Fin 512 → EReal := fun n f => x0 (ix2 n f)
/-- The adjacency by its two node coordinates. -/
abbrev cA : Fin 16384 → Fin 16384 → EReal := fun n k => x1 (ix2 n k)
/-- The first layer's weights by feature and hidden coordinate. -/
abbrev cW1 : Fin 512 → Fin 128 → EReal := fun f h => x2 (ix2 f h)
/-- The second layer's weights by hidden coordinate and class. -/
abbrev cW2 : Fin 128 → Fin 8 → EReal := fun h j => x3 (ix2 h j)
/-- The bias by class. -/
abbrev cB : Fin 8 → EReal := fun j => x4 (ix1 j)

/-- `x · W1` at (n, h): the sum over the 512 features. -/
theorem v0_at (n : Fin 16384) (h : Fin 128) :
    val_main_v0 (F := Ideal) x0 x2 (ix2 n h) = Spec.feat (cX x0) (cW1 x2) n h := by
  rw [val_main_v0_apply]
  unfold Spec.feat
  refine Finset.sum_congr rfl fun f _ => ?_
  have el : lidx_main_v0 (ix2 n h) f = ix2 n f :=
    funext fun a => Fin.ext (by match a with | ⟨0, _⟩ => rfl | ⟨1, _⟩ => rfl)
  have er : ridx_main_v0 (ix2 n h) f = ix2 f h :=
    funext fun a => Fin.ext (by match a with | ⟨0, _⟩ => rfl | ⟨1, _⟩ => rfl)
  rw [el, er]

/-- `adj · (x · W1)` at (n, h): the sum over the 16384 nodes. -/
theorem v1_at (n : Fin 16384) (h : Fin 128) :
    val_main_v1 (F := Ideal) x0 x1 x2 (ix2 n h) = ∑ k : Fin 16384, cA x1 n k * Spec.feat (cX x0) (cW1 x2) k h := by
  rw [val_main_v1_apply]
  refine Finset.sum_congr rfl fun k _ => ?_
  have el : lidx_main_v1 (ix2 n h) k = ix2 n k :=
    funext fun a => Fin.ext (by match a with | ⟨0, _⟩ => rfl | ⟨1, _⟩ => rfl)
  have er : ridx_main_v1 (ix2 n h) k = ix2 k h :=
    funext fun a => Fin.ext (by match a with | ⟨0, _⟩ => rfl | ⟨1, _⟩ => rfl)
  rw [el, er, v0_at]

/-- The positive part of the above, against the f32 zero: the hidden layer. -/
theorem v2_at (n : Fin 16384) (h : Fin 128) :
    val_main_v2 (F := Ideal) x0 x1 x2 (ix2 n h) = Spec.hidden (cX x0) (cA x1) (cW1 x2) n h := by
  rw [val_main_v2_apply, v1_at, val_main_call0_v0_apply, val_main_call0_cst_apply, Ideal.maximumf_def, Ideal.ofBits_def]
  rfl

/-- `hidden · W2` at (n, j): the sum over the 128 hidden coordinates. -/
theorem v3_at (n : Fin 16384) (j : Fin 8) :
    val_main_v3 (F := Ideal) x0 x1 x2 x3 (ix2 n j) = Spec.proj (cX x0) (cA x1) (cW1 x2) (cW2 x3) n j := by
  rw [val_main_v3_apply]
  unfold Spec.proj
  refine Finset.sum_congr rfl fun h _ => ?_
  have el : lidx_main_v3 (ix2 n j) h = ix2 n h :=
    funext fun a => Fin.ext (by match a with | ⟨0, _⟩ => rfl | ⟨1, _⟩ => rfl)
  have er : ridx_main_v3 (ix2 n j) h = ix2 h j :=
    funext fun a => Fin.ext (by match a with | ⟨0, _⟩ => rfl | ⟨1, _⟩ => rfl)
  rw [el, er, v2_at]

/-- `adj · (hidden · W2)` at (n, j): the sum over the 16384 nodes. -/
theorem v4_at (n : Fin 16384) (j : Fin 8) :
    val_main_v4 (F := Ideal) x0 x1 x2 x3 (ix2 n j)
      = ∑ k : Fin 16384, cA x1 n k * Spec.proj (cX x0) (cA x1) (cW1 x2) (cW2 x3) k j := by
  rw [val_main_v4_apply]
  refine Finset.sum_congr rfl fun k _ => ?_
  have el : lidx_main_v4 (ix2 n j) k = ix2 n k :=
    funext fun a => Fin.ext (by match a with | ⟨0, _⟩ => rfl | ⟨1, _⟩ => rfl)
  have er : ridx_main_v4 (ix2 n j) k = ix2 k j :=
    funext fun a => Fin.ext (by match a with | ⟨0, _⟩ => rfl | ⟨1, _⟩ => rfl)
  rw [el, er, v3_at]

/-- The bias spread over the rows, at (n, j): the bias of class `j`. -/
theorem v6_at (n : Fin 16384) (j : Fin 8) : val_main_v6 (F := Ideal) x4 (ix2 n j) = cB x4 j := by
  rw [val_main_v6_apply, val_main_v5_apply]
  exact congrArg x4 (funext fun a => Fin.ext (by match a with | ⟨0, _⟩ => rfl))

/-- The logits at (n, j). -/
theorem v7_at (n : Fin 16384) (j : Fin 8) :
    val_main_v7 (F := Ideal) x0 x1 x2 x3 x4 (ix2 n j)
      = Spec.logit (cX x0) (cA x1) (cW1 x2) (cW2 x3) (cB x4) n j := by
  rw [val_main_v7_apply, v4_at, v6_at, Ideal.addf_def]
  rfl

end Cert.RefSpec

end
-- ==== Proof.RefRowMax.lean ====
/-
  The host's maximum-reduce over the class axis, read at a row.

  A one-operand reduce with a commutative, associative body over ONE axis is, at a result index, the fold of the body
  from the initial value over that axis's coordinates. For an n×8 array reduced over its second axis with `max` from
  the f32 pattern of −∞, the entry of row `n` is the fold of `max` over the eight entries `x (n, j)`.
-/
import Idealize.ShloMosaic.PureOps.Reduce
import Idealize.ShloMosaic.PureOps.Ideal.Laws
import Idealize.ShloMosaic.Lib.ValueIdx

noncomputable section

namespace Cert.RefSpec

open Idealize.ShloMosaic Idealize.ShloMosaic.ValueIdx

/-- The row index `n` with the class coordinate `k` put back on the reduced axis is the pair (n, k). -/
theorem lift_row {R : Nat} (h : (⟨2, ![R, 8]⟩ : Shape).Reduces [1] (⟨1, ![R]⟩ : Shape)) (n : Fin R)
    (k : Fin ((⟨2, ![R, 8]⟩ : Shape).size 1)) : h.lift (ix1 n) k = ix2 n (⟨k.val, k.isLt⟩ : Fin 8) := by
  funext c
  apply Fin.ext
  match c with
  | ⟨0, _⟩ => rfl
  | ⟨1, _⟩ => rfl

/-- The maximum-reduce over the classes from −∞, at row `n`: the fold of `max` over the row's eight entries. -/
theorem hostReduce_max_row {R : Nat} (x : (⟨2, ![R, 8]⟩ : Shape).Idx → Ideal .f32)
    (h' : (⟨2, ![R, 8]⟩ : Shape).ReducesTo [1] (⟨1, ![R]⟩ : Shape))
    (h : (⟨2, ![R, 8]⟩ : Shape).Reduces [1] (⟨1, ![R]⟩ : Shape)) (hu : 0 < (⟨0, ![]⟩ : Shape).numel) (n : Fin R) :
    Host.reduce FloatOps.maximumf x (constant (F := Ideal) (⟨0, ![]⟩ : Shape) .f32 0xFF800000#32) h' hu (ix1 n)
      = (Finset.univ : Finset (Fin 8)).fold max (Ideal.ofBits .f32 0xFF800000#32) (fun j => x (ix2 n j)) := by
  rw [Host.reduce_eq_fold_single FloatOps.maximumf x _ h' h hu]
  have hf : (x ∘ h.lift (ix1 n)) = fun j : Fin 8 => x (ix2 n j) := funext fun k => congrArg x (lift_row h n k)
  exact congrArg (fun f => Finset.fold max (Ideal.ofBits .f32 0xFF800000#32) f (Finset.univ : Finset (Fin 8))) hf

end Cert.RefSpec

end
-- ==== Proof.RefIsG.lean ====
/-
  The reference computes the specification.

  After the logits the reference takes each row's maximum (a maximum-reduce over the eight classes from −∞, then once
  more the maximum against −∞), subtracts it, exponentiates, sums the eight exponentials of the row (a sum from the
  f32 zero, which adds nothing), takes the logarithm and subtracts it from the shifted logit. Entry by entry these
  are the specification's `rowMax`, `shifted` and `logSoftmax`, so the reference's result array is the function
  `Gout` of its five arguments.
-/
import proofs.«139395_j953482740192_1_alg».proof.Proof.RefIsG1
import proofs.«139395_j953482740192_1_alg».proof.Proof.RefRowMax

noncomputable section

namespace Cert.RefSpec

open Cert.ReferenceIdeal Cert.ReferenceIdeal.Gen Cert.ReferenceIdeal.ReadP Idealize.ShloMosaic Idealize.ShloMosaic.ValueIdx

variable (x0 : (⟨S16384x512, .f32⟩ : BufTy).Contents (Elt Ideal)) (x1 : (⟨S16384x16384, .f32⟩ : BufTy).Contents (Elt Ideal))
  (x2 : (⟨S512x128, .f32⟩ : BufTy).Contents (Elt Ideal)) (x3 : (⟨S128x8, .f32⟩ : BufTy).Contents (Elt Ideal))
  (x4 : (⟨S8, .f32⟩ : BufTy).Contents (Elt Ideal))

/-- The maximum-reduce of the logits over the classes, at row `n`: the fold of `max` from −∞ over the row. -/
theorem reduceMax_at (n : Fin 16384) :
    val_main_call1_v0 (F := Ideal) x0 x1 x2 x3 x4 (ix1 n)
      = (Finset.univ : Finset (Fin 8)).fold max (Ideal.ofBits .f32 0xFF800000#32)
          (fun j => Spec.logit (cX x0) (cA x1) (cW1 x2) (cW2 x3) (cB x4) n j) := by
  unfold val_main_call1_v0
  have hred : S16384x8.Reduces [1] S16384 := by decide
  refine (hostReduce_max_row (val_main_v7 (F := Ideal) x0 x1 x2 x3 x4) reducesTo_S16384x8_S16384_d1 hred h_S_ n).trans ?_
  exact congrArg (fun f => Finset.fold max (Ideal.ofBits .f32 0xFF800000#32) f (Finset.univ : Finset (Fin 8)))
    (funext fun j => v7_at x0 x1 x2 x3 x4 n j)

/-- The row's maximum as the reference takes it: −∞ against the reduce. -/
theorem rowMax_at (n : Fin 16384) :
    val_main_call1_v2 (F := Ideal) x0 x1 x2 x3 x4 (ix1 n)
      = Spec.rowMax (cX x0) (cA x1) (cW1 x2) (cW2 x3) (cB x4) n := by
  rw [val_main_call1_v2_apply, val_main_call1_v1_apply, val_main_call1_cst_0_apply, reduceMax_at, Ideal.maximumf_def,
    Ideal.ofBits_def]
  rfl

/-- The logit less its row's maximum, at (n, j). -/
theorem shifted_at (n : Fin 16384) (j : Fin 8) :
    val_main_call1_v5 (F := Ideal) x0 x1 x2 x3 x4 (ix2 n j)
      = Spec.shifted (cX x0) (cA x1) (cW1 x2) (cW2 x3) (cB x4) n j := by
  rw [val_main_call1_v5_apply, v7_at, val_main_call1_v4_apply, val_main_call1_v3_apply]
  have e : idx_main_call1_v3 (idx_main_call1_v4 (ix2 n j)) = ix1 n :=
    funext fun a => Fin.ext (by match a with | ⟨0, _⟩ => rfl)
  rw [e, rowMax_at, Ideal.subf_def]
  rfl

/-- The sum of the row's eight exponentials; the sum starts from the f32 zero, which is 0. -/
theorem sumExp_at (n : Fin 16384) :
    val_main_call1_v7 (F := Ideal) x0 x1 x2 x3 x4 (ix1 n)
      = ∑ j' : Fin 8, Ideal.exp (Spec.shifted (cX x0) (cA x1) (cW1 x2) (cW2 x3) (cB x4) n j') := by
  rw [val_main_call1_v7_apply, val_main_call1_cst_1_apply, Ideal.ofBits_def, Ideal.ofBits_zero_f32, zero_add]
  refine Finset.sum_congr rfl fun k _ => ?_
  have e : idx_main_call1_v7 (ix1 n) k = ix2 n k :=
    funext fun a => Fin.ext (by match a with | ⟨0, _⟩ => rfl | ⟨1, _⟩ => rfl)
  rw [e, val_main_call1_v6_apply, shifted_at, Ideal.hostUnary_exp_def]

/-- The result at (n, j): the shifted logit less the logarithm of the row's sum of exponentials. -/
theorem v8_at (n : Fin 16384) (j : Fin 8) :
    val_main_v8 (F := Ideal) x0 x1 x2 x3 x4 (ix2 n j)
      = Spec.logSoftmax (cX x0) (cA x1) (cW1 x2) (cW2 x3) (cB x4) n j := by
  rw [val_main_v8_apply, shifted_at, val_main_call1_v10_apply, val_main_call1_v9_apply, val_main_call1_v8_apply]
  have e : idx_main_call1_v8 (idx_main_call1_v10 (ix2 n j)) = ix1 n :=
    funext fun a => Fin.ext (by match a with | ⟨0, _⟩ => rfl)
  rw [e, sumExp_at, Ideal.hostUnary_log_def, Ideal.subf_def]
  rfl

/-- The reference's result array is `Gout` of the five argument arrays. -/
theorem ref_is_G (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x3 : (⟨S128x8, .f32⟩ : BufTy).Contents (Elt Ideal))
    (x4 : (⟨S8, .f32⟩ : BufTy).Contents (Elt Ideal)) :
    Cert.ReferenceIdeal.ReadP.val_main_v8 (F := Ideal) x0 x1 x2 x3 x4 = Cert.Spec.Gout x0 x1 x2 x3 x4 := by
  funext i
  obtain ⟨n, j, rfl⟩ : ∃ (n : Fin 16384) (j : Fin 8), i = ix2 n j := ⟨i 0, i 1, eq_ix2 i⟩
  exact v8_at x0 x1 x2 x3 x4 n j

end Cert.RefSpec

end
-- ==== Proof.KSpec.lean ====
/-
  The two layers as functions of what each kernel is handed, so that each kernel's result can be stated by itself.

  The first kernel is handed the adjacency, a feature matrix `ft` (n×128) and the weights W2, and leaves
  `projOf adj ft W2 = max (adj · ft) 0 · W2`. The second is handed the adjacency, a matrix `pr` (n×8) and a bias and
  leaves the row-wise log-softmax of `logitOf adj pr b = adj · pr + b`. With `ft` the feature product `x · W1` and
  `pr` the first kernel's result these are the whole computation (`logSoftmax_eq`).
-/
import proofs.«139395_j953482740192_1_alg».proof.Proof.Spec

noncomputable section

namespace Cert.KSpec

open Idealize.ShloMosaic Idealize.ShloMosaic.ValueIdx

/-- The hidden layer from a feature matrix: the adjacency applied to it, then the positive part. -/
def hiddenOf (adj : Fin 16384 → Fin 16384 → EReal) (ft : Fin 16384 → Fin 128 → EReal) (n : Fin 16384) (h : Fin 128) : EReal :=
  max (∑ k : Fin 16384, adj n k * ft k h) (Ideal.ofBits .f32 0x00000000#32)

/-- The first kernel's result: the hidden layer times the second layer's weights. -/
def projOf (adj : Fin 16384 → Fin 16384 → EReal) (ft : Fin 16384 → Fin 128 → EReal) (W2 : Fin 128 → Fin 8 → EReal)
    (n : Fin 16384) (j : Fin 8) : EReal := ∑ h : Fin 128, hiddenOf adj ft n h * W2 h j

/-- The logits from a projected matrix: the adjacency applied to it, plus the bias of the class. -/
def logitOf (adj : Fin 16384 → Fin 16384 → EReal) (pr : Fin 16384 → Fin 8 → EReal) (b : Fin 8 → EReal)
    (n : Fin 16384) (j : Fin 8) : EReal := (∑ k : Fin 16384, adj n k * pr k j) + b j

/-- A row's maximum, taken from −∞ upwards and once more against −∞. -/
def rowMaxOf (lg : Fin 16384 → Fin 8 → EReal) (n : Fin 16384) : EReal :=
  max (Ideal.ofBits .f32 0xFF800000#32)
    ((Finset.univ : Finset (Fin 8)).fold max (Ideal.ofBits .f32 0xFF800000#32) (fun j => lg n j))

/-- The row-wise log-softmax of a matrix of logits. -/
def lsmOf (lg : Fin 16384 → Fin 8 → EReal) (n : Fin 16384) (j : Fin 8) : EReal :=
  (lg n j - rowMaxOf lg n) - Ideal.log (∑ j' : Fin 8, Ideal.exp (lg n j' - rowMaxOf lg n))

/-- The whole computation is the second kernel's function of the first kernel's function of the feature product. -/
theorem logSoftmax_eq (x : Fin 16384 → Fin 512 → EReal) (adj : Fin 16384 → Fin 16384 → EReal)
    (W1 : Fin 512 → Fin 128 → EReal) (W2 : Fin 128 → Fin 8 → EReal) (b2 : Fin 8 → EReal) :
    Cert.Spec.logSoftmax x adj W1 W2 b2 = lsmOf (logitOf adj (projOf adj (Cert.Spec.feat x W1) W2) b2) := rfl

end Cert.KSpec

end
-- ==== Proof.Val.V0Pieces.lean ====
/-
  What each control case of the first kernel's body leaves, as the body's arithmetic of its blocks.

  The body clears the accumulator at the first column block of a row block, adds the block product of the
  adjacency block with the feature block at every column block, and at the last column block stores the
  projection of the accumulator's positive part into the output block. Each of these stores is one store of a
  whole buffer, so what a buffer holds afterwards is the last store's value, and each load reads a whole buffer
  (or, for the accumulator after it was cleared, the cleared value).
-/
import proofs.«139395_j953482740192_1_alg».proof.Proof.KIdeal.Region0
import Idealize.ShloMosaic.Lib.Pipeline.Value
import Idealize.ShloMosaic.Lib.Tactic

set_option maxRecDepth 16384

noncomputable section

namespace Cert.KernelIdeal.Hand.V0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The offsets of a store of a whole two-axis buffer. -/
theorem hz2 : (![0, 0] : Fin 2 → Nat) = fun _ => 0 := funext fun a => by fin_cases a <;> rfl

/-- First column block: the accumulator ends as the block product added to the cleared accumulator. -/
theorem soutA_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : cond0_0 i) (hc1 : ¬cond0_1 i) (x0 : Vec F S1024x2048 .f32) (x1 : Vec F S2048x128 .bf16) (x2 : Vec F S128x8 .f32) :
    sout0_A c i arg2 harg2 arg3 harg3 arg4 harg4 arg5 harg5 arg6 harg6 hc0 hc1 x0 x1 x2 = k0_pay2 x0 (k0_pay1 (F := F)) x1 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2]

/-- An inner column block: the block product added to what the accumulator held. -/
theorem soutB_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : ¬cond0_1 i) (x0 : Vec F S1024x2048 .f32) (x1 : Vec F S2048x128 .bf16) (x2 : Vec F S128x8 .f32) (xs0 : Vec F S1024x128 .f32) :
    sout0_B c i arg2 harg2 arg3 harg3 arg4 harg4 arg5 harg5 arg6 harg6 hc0 hc1 x0 x1 x2 xs0 = k0_pay2 x0 xs0 x1 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread, View.ld_unit_zero (S := S1024x2048) hz2, View.ld_unit_zero (S := S2048x128) hz2, View.ld_unit_zero (S := S1024x128) hz2]

/-- The last column block: the accumulator likewise. -/
theorem soutC_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) :
    sout0_C c i arg2 harg2 arg3 harg3 arg4 harg4 arg5 harg5 arg6 harg6 hc0 hc1 x0 x1 x2 xs0 = k0_pay2 x0 xs0 x1 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S1024x2048) hz2, View.ld_unit_zero (S := S2048x128) hz2, View.ld_unit_zero (S := S1024x128) hz2]

/-- The last column block: the output block is the projection of the accumulator as that point leaves it. -/
theorem outC_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x8 .f32) (harg4 : arg4.IsWhole) (arg5 : Memref sig .tc .vmem S1024x8 .bf16) (harg5 : arg5.IsWhole) (arg6 : Memref sig .tc .vmem S1024x128 .f32) (harg6 : arg6.IsWhole) (hc0 : ¬cond0_0 i) (hc1 : cond0_1 i) (x0 : Vec F S1024x2048 .f32) (x1 : Vec F S2048x128 .bf16) (x2 : Vec F S128x8 .f32) (xs0 : Vec F S1024x128 .f32) :
    out0_C_3 c i arg2 harg2 arg3 harg3 arg4 harg4 arg5 harg5 arg6 harg6 hc0 hc1 x0 x1 x2 xs0 = k0_pay3 (k0_pay2 x0 xs0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S1024x128) _ hz2]
  simp only [View.readAt_eq_ld, harg2.read_unread, harg3.read_unread, harg4.read_unread, harg6.read_unread, View.ld_unit_zero (S := S1024x2048) hz2, View.ld_unit_zero (S := S2048x128) hz2, View.ld_unit_zero (S := S1024x128) hz2, View.ld_unit_zero (S := S128x8) hz2]

end Cert.KernelIdeal.Hand.V0

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Val.V0Pay.lean ====
/-
  The first kernel's arithmetic read entry by entry on the extended reals.

  The cleared accumulator is zero everywhere. A column block's step adds to the accumulator's entry (p, h) the
  sum over the block's 2048 columns q of adjacency(p, q) · features(q, h): the change of float format before the
  product is the identity on the extended reals, and the product is accumulated into zeros. The last step's
  projection at (p, j) is the sum over the 128 hidden units h of max(acc(p, h), 0) · weights(h, j).
-/
import proofs.«139395_j953482740192_1_alg».proof.Proof.Gen.KernelIdeal.Skeleton
import proofs.«139395_j953482740192_1_alg».proof.Proof.LibPlainDot

set_option maxRecDepth 16384

noncomputable section

open scoped BigOperators

namespace Cert.KernelIdeal.Hand.V0

open Cert.KernelIdeal Cert.KernelIdeal.Gen
open Idealize.ShloMosaic Idealize.ShloMosaic.ValueIdx

/-! ## The block product's dimension numbers, coordinate by coordinate -/

theorem lhs_blk_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_blk_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_blk_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_blk_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-! ## The projection's dimension numbers -/

theorem lhs_prj_0 (i : S1024x8.Idx) (q : dot_S1024x128_S128x8_S1024x8_1_0_0_1_n_n.contr.Idx) :
    (dot_S1024x128_S128x8_S1024x8_1_0_0_1_n_n.lhsIdx i q 0).val = (i 0).val := by
  unfold DotDims.lhsIdx
  rw [dif_neg (show ¬(0 : Fin S1024x128.rank) ∈ dot_S1024x128_S128x8_S1024x8_1_0_0_1_n_n.lhsBatch by decide), dif_pos (show (0 : Fin S1024x128.rank) ∈ dot_S1024x128_S128x8_S1024x8_1_0_0_1_n_n.lhsNonContracting by decide)]
  rfl
theorem lhs_prj_1 (i : S1024x8.Idx) (q : dot_S1024x128_S128x8_S1024x8_1_0_0_1_n_n.contr.Idx) :
    (dot_S1024x128_S128x8_S1024x8_1_0_0_1_n_n.lhsIdx i q 1).val = (q ⟨0, by decide⟩).val :=
  dot_S1024x128_S128x8_S1024x8_1_0_0_1_n_n.lhsIdx_val_of_single rfl i q
theorem rhs_prj_0 (i : S1024x8.Idx) (q : dot_S1024x128_S128x8_S1024x8_1_0_0_1_n_n.contr.Idx) :
    (dot_S1024x128_S128x8_S1024x8_1_0_0_1_n_n.rhsIdx i q 0).val = (q ⟨0, by decide⟩).val :=
  dot_S1024x128_S128x8_S1024x8_1_0_0_1_n_n.rhsIdx_val_of_single rfl i q
theorem rhs_prj_1 (i : S1024x8.Idx) (q : dot_S1024x128_S128x8_S1024x8_1_0_0_1_n_n.contr.Idx) :
    (dot_S1024x128_S128x8_S1024x8_1_0_0_1_n_n.rhsIdx i q 1).val = (i 1).val := by
  unfold DotDims.rhsIdx
  rw [dif_neg (show ¬(1 : Fin S128x8.rank) ∈ dot_S1024x128_S128x8_S1024x8_1_0_0_1_n_n.rhsBatch by decide), dif_pos (show (1 : Fin S128x8.rank) ∈ dot_S1024x128_S128x8_S1024x8_1_0_0_1_n_n.rhsNonContracting by decide)]
  rfl

/-! ## The three values at an entry -/

/-- The cleared accumulator is zero at every entry. -/
theorem pay1_apply (p : Fin 1024) (h : Fin 128) : k0_pay1 (F := Ideal) (ix2 p h) = (0 : EReal) := by
  unfold k0_pay1
  refine (congrFun (shapeCast_self _ shapeCasts_S1024x128_S1024x128) (ix2 p h)).trans ?_
  exact Cert.LibPlainDot.scalar_zero

/-- A column block's step at entry (p, h): the accumulator's entry plus the block product's. -/
theorem pay2_apply (x0 : Vec Ideal S1024x2048 .f32) (acc : Vec Ideal S1024x128 .f32) (x1 : Vec Ideal S2048x128 .bf16)
    (p : Fin 1024) (h : Fin 128) :
    k0_pay2 (F := Ideal) x0 acc x1 (ix2 p h) = acc (ix2 p h) + ∑ q : Fin 2048, x0 (ix2 p q) * x1 (ix2 q h) := by
  unfold k0_pay2
  refine (congrFun (shapeCast_self _ shapeCasts_S1024x128_S1024x128) (ix2 p h)).trans ?_
  refine congrArg (fun z : EReal => acc (ix2 p h) + z) ?_
  refine (Ideal.matmul_constant_zero_apply dot_S1024x2048_S2048x128_S1024x128_1_0_0_1_n_n none _ _ (ix2 p h)).trans ?_
  refine (Cert.LibPlainDot.sum_plain dot_S1024x2048_S2048x128_S1024x128_1_0_0_1_n_n rfl rfl lhs_blk_0 lhs_blk_1 rhs_blk_0 rhs_blk_1 _ _ p h).trans ?_
  refine Finset.sum_congr rfl fun q _ => ?_
  exact congrArg (fun z : EReal => x0 (ix2 p q) * z) (congrFun (shapeCast_self x1 shapeCasts_S2048x128_S2048x128) (ix2 q h))

/-- The projection at entry (p, j): over the hidden units, the accumulator's positive part times the weights. -/
theorem pay3_apply (acc : Vec Ideal S1024x128 .f32) (w : Vec Ideal S128x8 .f32) (p : Fin 1024) (j : Fin 8) :
    k0_pay3 (F := Ideal) acc w (ix2 p j)
      = ∑ h : Fin 128, max (acc (ix2 p h)) (Ideal.ofBits .f32 0x00000000#32) * w (ix2 h j) := by
  unfold k0_pay3
  refine (Ideal.matmul_constant_zero_apply dot_S1024x128_S128x8_S1024x8_1_0_0_1_n_n none _ _ (ix2 p j)).trans ?_
  refine (Cert.LibPlainDot.sum_plain dot_S1024x128_S128x8_S1024x8_1_0_0_1_n_n rfl rfl lhs_prj_0 lhs_prj_1 rhs_prj_0 rhs_prj_1 _ _ p j).trans ?_
  rfl

end Cert.KernelIdeal.Hand.V0

end
-- ==== Proof.LibTiledSum.lean ====
/-
  Sums over an initial segment of the naturals cut into equal tiles, and matrices extended by zero to all pairs of
  naturals, so that an entry can be named by arithmetic on its coordinates with no bound proof in the way.

  A blocked matrix product sums, block after block, over the columns of one block; taken together the blocks'
  columns are the columns of the whole matrix: `∑ k < a, ∑ q < b, f (b·k + q) = ∑ n < a·b, f n`.
-/
import Mathlib.Algebra.BigOperators.Fin

open scoped BigOperators

namespace Cert.LibTiledSum

open Finset

variable {M : Type*} [AddCommMonoid M]

/-- Summing `f` tile by tile, `a` tiles of `b` consecutive naturals each, is summing it over the first `a * b`
    naturals. -/
theorem sum_range_tiles (f : ℕ → M) (a b : ℕ) :
    ∑ k ∈ range a, ∑ q ∈ range b, f (b * k + q) = ∑ n ∈ range (a * b), f n := by
  induction a with
  | zero => simp
  | succ a ih => rw [sum_range_succ, ih, Nat.succ_mul, sum_range_add, Nat.mul_comm b a]

/-- The same with the inner sum and the total sum over `Fin`. -/
theorem sum_tiles_fin (f : ℕ → M) (a b : ℕ) :
    ∑ k ∈ range a, ∑ q : Fin b, f (b * k + q.val) = ∑ n : Fin (a * b), f n.val := by
  rw [← Finset.sum_range (fun n => f n), ← sum_range_tiles]
  exact sum_congr rfl fun k _ => (Finset.sum_range (fun q => f (b * k + q))).symm

/-- A matrix extended by zero to all pairs of naturals. -/
def ext2 {n m : ℕ} (g : Fin n → Fin m → M) (r s : ℕ) : M :=
  if h : r < n ∧ s < m then g ⟨r, h.1⟩ ⟨s, h.2⟩ else 0

/-- Inside the matrix the extension is the matrix. -/
theorem ext2_of_lt {n m : ℕ} (g : Fin n → Fin m → M) {r s : ℕ} (hr : r < n) (hs : s < m) :
    ext2 g r s = g ⟨r, hr⟩ ⟨s, hs⟩ := dif_pos ⟨hr, hs⟩

theorem ext2_val {n m : ℕ} (g : Fin n → Fin m → M) (r : Fin n) (s : Fin m) : ext2 g r.val s.val = g r s :=
  dif_pos ⟨r.isLt, s.isLt⟩

/-- A product of two matrices summed block after block over the shared axis, `a` blocks of `b`, is the product summed
    over the whole shared axis. -/
theorem sum_tiles_mul {R : Type*} [AddCommMonoid R] [Mul R] {n m : ℕ} (a b : ℕ) (l : Fin n → Fin (a * b) → R) (r : Fin (a * b) → Fin m → R)
    (i : Fin n) (j : Fin m) :
    ∑ k ∈ range a, ∑ q : Fin b, ext2 l i.val (b * k + q.val) * ext2 r (b * k + q.val) j.val = ∑ s : Fin (a * b), l i s * r s j := by
  rw [sum_tiles_fin (fun s => ext2 l i.val s * ext2 r s j.val) a b]
  exact sum_congr rfl fun s _ => by rw [ext2_val, ext2_val]

end Cert.LibTiledSum
-- ==== Proof.Val.V0Blocks.lean ====
/-
  The blocks the first kernel reads at a grid point, as entries of the arrays it was handed.

  Point t = 8·i + k of the 16 × 8 grid reads the adjacency's block of rows 1024·i … 1024·i + 1023 and columns
  2048·k … 2048·k + 2047, the feature matrix's block of rows 2048·k … 2048·k + 2047, and the whole weight matrix:
  an entry of a block sits in its array, on each axis, at the block's index times the block's size plus the entry's
  coordinate inside the block. The arrays are named as matrices over their literal extents, and a block's entry is
  stated through the matrix extended by zero, so that its row and column are plain arithmetic.
-/
import proofs.«139395_j953482740192_1_alg».proof.Proof.KIdeal.R0Base
import proofs.«139395_j953482740192_1_alg».proof.Proof.LibTiledSum
import Idealize.ShloMosaic.Lib.ValueIdx
import Idealize.ShloMosaic.Lib.Pipeline.Value

set_option maxRecDepth 16384

noncomputable section

namespace Cert.KernelIdeal.Hand.V0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibTiledSum (ext2 ext2_of_lt)

variable (V : (c : Dev nD) → (b : Ref sig .tc) → Buf (Elt Ideal) ((c : Thread nD τ).loc b))

/-! ## The three arrays as matrices, and the three blocks at a point -/

/-- The adjacency as the region finds it. -/
abbrev adjM (c : Dev nD) : Fin 16384 → Fin 16384 → EReal := fun n k => (V c main_arg1 : S16384x16384.Idx → EReal) (ix2 n k)
/-- The feature matrix as the region finds it. -/
abbrev ftM (c : Dev nD) : Fin 16384 → Fin 128 → EReal := fun k h => (V c main_v1 : S16384x128.Idx → EReal) (ix2 k h)
/-- The second layer's weights as the region finds them. -/
abbrev w2M (c : Dev nD) : Fin 128 → Fin 8 → EReal := fun h j => (V c main_arg3 : S128x8.Idx → EReal) (ix2 h j)

/-- The adjacency's block at point `t`. -/
abbrev ablk (c : Dev nD) (t : Fin cfg0.N) : Vec Ideal S1024x2048 .f32 := iblk0 V c 0 t
/-- The feature matrix's block at point `t`. -/
abbrev fblk (c : Dev nD) (t : Fin cfg0.N) : Vec Ideal S2048x128 .bf16 := iblk0 V c 1 t
/-- The weights' one block. -/
abbrev wblk (c : Dev nD) (t : Fin cfg0.N) : Vec Ideal S128x8 .f32 := iblk0 V c 2 t

/-! ## Where the blocks sit -/

/-- The windows' block indices at point t = 8·i + k: the adjacency's (i, k), the features' (k, 0), the weights'
    (0, 0), the result's (i, 0). -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- Entry (p, q) of the adjacency's block at point t is the adjacency at row 1024·(t / 8) + p, column 2048·(t % 8) + q. -/
theorem ablk_apply (c : Dev nD) (t : Fin cfg0.N) (p : Fin 1024) (q : Fin 2048) :
    ablk V c t (ix2 p q) = ext2 (adjM V c) (1024 * (t.val / 8) + p.val) (2048 * (t.val % 8) + q.val) := by
  have hN : t.val < 128 := lt_of_lt_of_eq t.isLt (show cfg0.N = 128 from N_0)
  have hp := p.isLt
  have hq := q.isLt
  rw [ext2_of_lt (adjM V c) (show 1024 * (t.val / 8) + p.val < 16384 by omega) (show 2048 * (t.val % 8) + q.val < 16384 by omega)]
  obtain ⟨e0, e1, -⟩ := idx_facts0 t
  show iblk0 V c 0 t (ix2 p q) = _
  unfold iblk0
  rw [View.read_apply]
  show V c main_arg1 _ = V c main_arg1 _
  congr 1
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 2048 + 1 * q.val = 2048 * (t.val % 8) + q.val; rw [e1]; omega

/-- Entry (q, h) of the feature block at point t is the feature matrix at row 2048·(t % 8) + q, column h. -/
theorem fblk_apply (c : Dev nD) (t : Fin cfg0.N) (q : Fin 2048) (h : Fin 128) :
    fblk V c t (ix2 q h) = ext2 (ftM V c) (2048 * (t.val % 8) + q.val) h.val := by
  have hN : t.val < 128 := lt_of_lt_of_eq t.isLt (show cfg0.N = 128 from N_0)
  have hq := q.isLt
  rw [ext2_of_lt (ftM V c) (show 2048 * (t.val % 8) + q.val < 16384 by omega) h.isLt]
  obtain ⟨-, -, e0, e1, -⟩ := idx_facts0 t
  show iblk0 V c 1 t (ix2 q h) = _
  unfold iblk0
  rw [View.read_apply]
  show V c main_v1 _ = V c main_v1 _
  congr 1
  funext a
  apply Fin.ext
  match a with
  | ⟨0, _⟩ => show win0_1.index t (0 : Fin 2) * 2048 + 1 * q.val = 2048 * (t.val % 8) + q.val; rw [e0]; omega
  | ⟨1, _⟩ => show win0_1.index t (1 : Fin 2) * 128 + 1 * h.val = h.val; rw [e1]; omega

/-- The weights' block is the weight matrix. -/
theorem wblk_apply (c : Dev nD) (t : Fin cfg0.N) (h : Fin 128) (j : Fin 8) :
    wblk V c t (ix2 h j) = w2M V c h j := by
  obtain ⟨-, -, -, -, e0, e1, -⟩ := idx_facts0 t
  show iblk0 V c 2 t (ix2 h j) = _
  unfold iblk0
  rw [View.read_apply]
  show V c main_arg3 _ = V c main_arg3 _
  congr 1
  funext a
  apply Fin.ext
  match a with
  | ⟨0, _⟩ => show win0_2.index t (0 : Fin 2) * 128 + 1 * h.val = h.val; rw [e0]; omega
  | ⟨1, _⟩ => show win0_2.index t (1 : Fin 2) * 8 + 1 * j.val = j.val; rw [e1]; omega

end Cert.KernelIdeal.Hand.V0

end
-- ==== Proof.Val.V0Acc.lean ====
/-
  What the first kernel's accumulator and output block hold, entry by entry, on the extended reals.

  Within row block i the accumulator after column block k holds, at (p, h), the sum over the column blocks
  k' ≤ k and the 2048 columns q of each of adjacency(1024·i + p, 2048·k' + q) · features(2048·k' + q, h): it is
  cleared before the first block's product is added, and each later point adds its block's product to what the
  point before left. After the eighth column block the tiles are all 16384 columns, so the accumulator is the
  product of the adjacency's row with the feature matrix's column, and the output block's entry (p, j) is the
  projection of that row's positive part: the specification's value at row 1024·i + p.
-/
import proofs.«139395_j953482740192_1_alg».proof.Proof.KIdeal.Region0
import proofs.«139395_j953482740192_1_alg».proof.Proof.KSpec
import proofs.«139395_j953482740192_1_alg».proof.Proof.Val.V0Pieces
import proofs.«139395_j953482740192_1_alg».proof.Proof.Val.V0Pay
import proofs.«139395_j953482740192_1_alg».proof.Proof.Val.V0Blocks

set_option maxRecDepth 16384

noncomputable section

open scoped BigOperators

namespace Cert.KernelIdeal.Hand.V0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibTiledSum (ext2)

variable (V : (c : Dev nD) → (b : Ref sig .tc) → Buf (Elt Ideal) ((c : Thread nD τ).loc b))

/-! ## One point's step -/

/-- At the first column block of a row block the accumulator ends as that block's product. -/
theorem acc_first (c : Dev nD) (t : Fin cfg0.N) (h0 : t.val % 8 = 0) (p : Fin 1024) (h : Fin 128) :
    (outsAt0 V c t.val t.isLt).2 (ix2 p h) = ∑ q : Fin 2048, ablk V c t (ix2 p q) * fblk V c t (ix2 q h) := by
  have h1 : ¬t.val % 8 = 7 := by omega
  rw [outsAt0_A V c t h0 h1]
  dsimp only
  refine (congrFun (soutA_eq (F := Ideal) c (grid0.coords t) (ms0_0 t) (hs0_0 t) (ms0_1 t) (hs0_1 t) (ms0_2 t) (hs0_2 t) (ms0_3 t) (hs0_3 t) scM0 (Memref.isWhole_whole cc0_scratch0) ((hcond0_0 t).mpr h0) (fun hh => h1 ((hcond0_1 t).mp hh)) (ablk V c t) (fblk V c t) (wblk V c t)) (ix2 p h)).trans ?_
  refine (pay2_apply (ablk V c t) (k0_pay1 (F := Ideal)) (fblk V c t) p h).trans ?_
  rw [pay1_apply p h, zero_add]

/-- At every later column block it ends as what the point before left plus that block's product. -/
theorem acc_next (c : Dev nD) (t : Fin cfg0.N) (h0 : ¬t.val % 8 = 0) (p : Fin 1024) (h : Fin 128) :
    (outsAt0 V c t.val t.isLt).2 (ix2 p h)
      = (outsAt0 V c (t.val - 1) (Nat.lt_of_le_of_lt (Nat.sub_le _ _) t.isLt)).2 (ix2 p h)
        + ∑ q : Fin 2048, ablk V c t (ix2 p q) * fblk V c t (ix2 q h) := by
  by_cases h1 : t.val % 8 = 7
  · rw [outsAt0_C V c t h0 h1]
    dsimp only
    refine (congrFun (soutC_eq (F := Ideal) c (grid0.coords t) (ms0_0 t) (hs0_0 t) (ms0_1 t) (hs0_1 t) (ms0_2 t) (hs0_2 t) (ms0_3 t) (hs0_3 t) scM0 (Memref.isWhole_whole cc0_scratch0) (fun hh => h0 ((hcond0_0 t).mp hh)) ((hcond0_1 t).mpr h1) (ablk V c t) (fblk V c t) (wblk V c t) (outsAt0 V c (t.val - 1) (Nat.lt_of_le_of_lt (Nat.sub_le _ _) t.isLt)).2) (ix2 p h)).trans ?_
    exact pay2_apply (ablk V c t) (outsAt0 V c (t.val - 1) (Nat.lt_of_le_of_lt (Nat.sub_le _ _) t.isLt)).2 (fblk V c t) p h
  · rw [outsAt0_B V c t h0 h1]
    dsimp only
    refine (congrFun (soutB_eq (F := Ideal) c (grid0.coords t) (ms0_0 t) (hs0_0 t) (ms0_1 t) (hs0_1 t) (ms0_2 t) (hs0_2 t) (ms0_3 t) (hs0_3 t) scM0 (Memref.isWhole_whole cc0_scratch0) (fun hh => h0 ((hcond0_0 t).mp hh)) (fun hh => h1 ((hcond0_1 t).mp hh)) (ablk V c t) (fblk V c t) (wblk V c t) (outsAt0 V c (t.val - 1) (Nat.lt_of_le_of_lt (Nat.sub_le _ _) t.isLt)).2) (ix2 p h)).trans ?_
    exact pay2_apply (ablk V c t) (outsAt0 V c (t.val - 1) (Nat.lt_of_le_of_lt (Nat.sub_le _ _) t.isLt)).2 (fblk V c t) p h

/-- At the last column block the output block is the projection of the accumulator as that point leaves it. -/
theorem out_last (c : Dev nD) (t : Fin cfg0.N) (h1 : t.val % 8 = 7) :
    (outsAt0 V c t.val t.isLt).1 = k0_pay3 (F := Ideal) (outsAt0 V c t.val t.isLt).2 (wblk V c t) := by
  have h0 : ¬t.val % 8 = 0 := by omega
  rw [outsAt0_C V c t h0 h1]
  dsimp only
  rw [outC_eq (F := Ideal) c (grid0.coords t) (ms0_0 t) (hs0_0 t) (ms0_1 t) (hs0_1 t) (ms0_2 t) (hs0_2 t) (ms0_3 t) (hs0_3 t) scM0 (Memref.isWhole_whole cc0_scratch0) (fun hh => h0 ((hcond0_0 t).mp hh)) ((hcond0_1 t).mpr h1) (ablk V c t) (fblk V c t) (wblk V c t) (outsAt0 V c (t.val - 1) (Nat.lt_of_le_of_lt (Nat.sub_le _ _) t.isLt)).2,
    soutC_eq (F := Ideal) c (grid0.coords t) (ms0_0 t) (hs0_0 t) (ms0_1 t) (hs0_1 t) (ms0_2 t) (hs0_2 t) (ms0_3 t) (hs0_3 t) scM0 (Memref.isWhole_whole cc0_scratch0) (fun hh => h0 ((hcond0_0 t).mp hh)) ((hcond0_1 t).mpr h1) (ablk V c t) (fblk V c t) (wblk V c t) (outsAt0 V c (t.val - 1) (Nat.lt_of_le_of_lt (Nat.sub_le _ _) t.isLt)).2]

/-! ## The accumulator after every point -/

/-- After point n = 8·i + k the accumulator's entry (p, h) is the product's partial sum over column blocks 0 … k. -/
theorem acc_eq (c : Dev nD) (n : ℕ) : ∀ (hn : n < cfg0.N) (p : Fin 1024) (h : Fin 128),
    (outsAt0 V c n hn).2 (ix2 p h)
      = ∑ k ∈ Finset.range (n % 8 + 1), ∑ q : Fin 2048,
          ext2 (adjM V c) (1024 * (n / 8) + p.val) (2048 * k + q.val) * ext2 (ftM V c) (2048 * k + q.val) h.val := by
  induction n using Nat.strong_induction_on with
  | _ n ih =>
    intro hn p h
    by_cases h0 : n % 8 = 0
    · refine (acc_first V c ⟨n, hn⟩ h0 p h).trans ?_
      rw [h0, Finset.sum_range_one]
      refine Finset.sum_congr rfl fun q _ => ?_
      rw [ablk_apply, fblk_apply]
      show ext2 (adjM V c) (1024 * (n / 8) + p.val) (2048 * (n % 8) + q.val) * ext2 (ftM V c) (2048 * (n % 8) + q.val) h.val = _
      rw [h0]
    · refine (acc_next V c ⟨n, hn⟩ h0 p h).trans ?_
      have e1 : (n - 1) % 8 + 1 = n % 8 := by omega
      have e2 : (n - 1) / 8 = n / 8 := by omega
      have hprev := ih (n - 1) (by omega) (Nat.lt_of_le_of_lt (Nat.sub_le n 1) hn) p h
      rw [e1, e2] at hprev
      rw [Finset.sum_range_succ]
      refine congrArg₂ (fun x y : EReal => x + y) hprev ?_
      refine Finset.sum_congr rfl fun q _ => ?_
      rw [ablk_apply, fblk_apply]

/-- After the last column block of row block i it is the whole product: row 1024·i + p of the adjacency times
    column h of the feature matrix. -/
theorem acc_last (c : Dev nD) (t : Fin cfg0.N) (h1 : t.val % 8 = 7) (p : Fin 1024) (h : Fin 128) (r : Fin 16384)
    (hr : r.val = 1024 * (t.val / 8) + p.val) :
    (outsAt0 V c t.val t.isLt).2 (ix2 p h) = ∑ s : Fin 16384, adjM V c r s * ftM V c s h := by
  rw [acc_eq V c t.val t.isLt p h, h1, ← hr]
  exact Cert.LibTiledSum.sum_tiles_mul 8 2048 (adjM V c) (ftM V c) r h

/-! ## The output block at the last column block -/

/-- Entry (p, j) of the output block stored at point 8·i + 7 is the specification's value at row 1024·i + p, class j. -/
theorem out_eq (c : Dev nD) (t : Fin cfg0.N) (h1 : t.val % 8 = 7) (p : Fin 1024) (j : Fin 8) (r : Fin 16384) (j' : Fin 8)
    (hr : r.val = 1024 * (t.val / 8) + p.val) (hj : j'.val = j.val) :
    (outsAt0 V c t.val t.isLt).1 (ix2 p j) = Cert.KSpec.projOf (adjM V c) (ftM V c) (w2M V c) r j' := by
  obtain rfl : j' = j := Fin.ext hj
  rw [out_last V c t h1]
  refine (pay3_apply (outsAt0 V c t.val t.isLt).2 (wblk V c t) p j').trans ?_
  unfold Cert.KSpec.projOf Cert.KSpec.hiddenOf
  refine Finset.sum_congr rfl fun h _ => ?_
  rw [acc_last V c t h1 p h r hr, wblk_apply]

end Cert.KernelIdeal.Hand.V0

end
-- ==== Proof.Val.Value0.lean ====
/-
  What the first kernel leaves in its result array, on the extended reals: over the eight column blocks of a row
  block the accumulator sums the block products of the adjacency with the feature matrix, which regroup into the
  sum over all 16384 columns; at the last column block the positive part of that sum, times the second layer's
  weights, is written to the rows of the row block; the sixteen row blocks tile the array.

  Here: the block written back at point 8·i + 7 is rows 1024·i … 1024·i + 1023 of the specification's matrix (an
  entry of the block sits at row 1024·i + its row, at its own column), and row r of the array lies in the block
  written back at point 8·(r / 1024) + 7, so the array ends as the specification's matrix.
-/
import proofs.«139395_j953482740192_1_alg».proof.Proof.KIdeal.Region0
import proofs.«139395_j953482740192_1_alg».proof.Proof.KSpec
import proofs.«139395_j953482740192_1_alg».proof.Proof.Val.V0Acc
import Idealize.ShloMosaic.Lib.ValueIdx
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace Cert.KernelIdeal.Hand.V0

/-- The specification's matrix of the three arrays as the region finds them, as contents of the result array. -/
abbrev spec0M (V : (c : Dev nD) → (b : Ref sig .tc) → Buf (Elt Ideal) ((c : Thread nD τ).loc b)) (c : Dev nD) :
    S16384x8.Idx → EReal :=
  fun i => Cert.KSpec.projOf (adjM V c) (ftM V c) (w2M V c) (i 0) (i 1)

/-- The block written back at a last column block is that block of the specification's matrix. -/
theorem flushed0_eq (V : (c : Dev nD) → (b : Ref sig .tc) → Buf (Elt Ideal) ((c : Thread nD τ).loc b)) (c : Dev nD)
    (t : Fin cfg0.N) (hf : (cfg0.win 3).flush t = true) :
    (dat0 (F := Ideal) V c).flushed 3 t = ((cfg0.win 3).blk t).view.read (Elt Ideal) (spec0M V c) := by
  have h1 : t.val % 8 = 7 := (flush0_3 t).mp hf
  obtain ⟨-, -, -, -, -, -, e0, e1⟩ := idx_facts0 t
  show (cfg0.win 3).cut (grid0.coords t) ((dat0 (F := Ideal) V c).after 3 t) = _
  rw [after0_3]
  funext j
  have hj0 : (j 0).val < 1024 := (j 0).isLt
  have hj1 : (j 1).val < 8 := (j 1).isLt
  show (outsAt0 V c t.val t.isLt).1 ((cfg0.win 3).xinj (grid0.coords t) j) = spec0M V c (((cfg0.win 3).blk t).view.emb j)
  have ej : (cfg0.win 3).xinj (grid0.coords t) j = ix2 (⟨(j 0).val, hj0⟩ : Fin 1024) (⟨(j 1).val, hj1⟩ : Fin 8) :=
    funext fun a => by
      match a with
      | ⟨0, _⟩ => rfl
      | ⟨1, _⟩ => rfl
  rw [ej]
  exact out_eq V c t h1 ⟨(j 0).val, hj0⟩ ⟨(j 1).val, hj1⟩ _ _
    (by show win0_3.index t (0 : Fin 2) * 1024 + 1 * (j 0).val = 1024 * (t.val / 8) + (j 0).val; rw [e0]; omega)
    (by show win0_3.index t (1 : Fin 2) * 8 + 1 * (j 1).val = (j 1).val; rw [e1]; omega)

/-- Row r of the result array lies in the block written back at point 8·(r / 1024) + 7. -/
theorem cover0 (i : S16384x8.Idx) :
    ∃ t : Fin cfg0.N, (cfg0.win 3).flush t = true ∧ i ∈ ((cfg0.win 3).blk t).view.set := by
  have hi0 : (i 0).val < 16384 := (i 0).isLt
  have hi1 : (i 1).val < 8 := (i 1).isLt
  have hN : cfg0.N = 128 := N_0
  have ht : 8 * ((i 0).val / 1024) + 7 < cfg0.N := by rw [hN]; omega
  refine ⟨⟨8 * ((i 0).val / 1024) + 7, ht⟩, (flush0_3 _).mpr (by show (8 * ((i 0).val / 1024) + 7) % 8 = 7; omega), ?_⟩
  obtain ⟨-, -, -, -, -, -, e0, e1⟩ := idx_facts0 ⟨8 * ((i 0).val / 1024) + 7, ht⟩
  have e0' : win0_3.index ⟨8 * ((i 0).val / 1024) + 7, ht⟩ (0 : Fin 2) = (8 * ((i 0).val / 1024) + 7) / 8 := e0
  show i ∈ ((View.whole main_v2).slice (win0_3.rect ⟨8 * ((i 0).val / 1024) + 7, ht⟩)).set
  rw [View.set_slice_whole, Rect.mem_set_unit]
  intro a
  match a with
  | ⟨0, _⟩ =>
    show win0_3.index ⟨8 * ((i 0).val / 1024) + 7, ht⟩ (0 : Fin 2) * 1024 ≤ (i 0).val
      ∧ (i 0).val < win0_3.index ⟨8 * ((i 0).val / 1024) + 7, ht⟩ (0 : Fin 2) * 1024 + 1024
    rw [e0']; omega
  | ⟨1, _⟩ =>
    show win0_3.index ⟨8 * ((i 0).val / 1024) + 7, ht⟩ (1 : Fin 2) * 8 ≤ (i 1).val
      ∧ (i 1).val < win0_3.index ⟨8 * ((i 0).val / 1024) + 7, ht⟩ (1 : Fin 2) * 8 + 8
    rw [e1]; omega

end Cert.KernelIdeal.Hand.V0

namespace Cert.KernelIdeal.Hand

open Cert.KernelIdeal.Hand.V0

/-- After region 0 its result array holds `max (adj · ft) 0 · W2` of the three arrays it was handed: the adjacency,
    the feature matrix and the second layer's weights, as the region found them. -/
theorem arrAt0_eq (V : (c : Dev nD) → (b : Ref sig .tc) → Buf (Elt Ideal) ((c : Thread nD τ).loc b)) (c : Dev nD) :
    (dat0 (F := Ideal) V c).arrAt 3 cfg0.N
      = fun i : S16384x8.Idx => Cert.KSpec.projOf
          (fun n k => (V c main_arg1 : S16384x16384.Idx → EReal) (ix2 n k))
          (fun k h => (V c main_v1 : S16384x128.Idx → EReal) (ix2 k h))
          (fun h j => (V c main_arg3 : S128x8.Idx → EReal) (ix2 h j)) (i 0) (i 1) :=
  (dat0 (F := Ideal) V c).arrAt_eq_of_cover 3 (spec0M V c) (fun t hf => flushed0_eq V c t hf) cover0

end Cert.KernelIdeal.Hand

end
-- ==== Proof.Val.V1Pieces.lean ====
/-
  What each control case of the second kernel's body leaves, as the named payloads of the blocks it loaded: the first
  point of a row block leaves the block product added to the cleared accumulator; an inner point leaves the block
  product added to the accumulator it found; the last point leaves that too, and in the output window the epilogue of
  that sum and the bias row.
-/
import proofs.«139395_j953482740192_1_alg».proof.Proof.KIdeal.Region1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz1 : (![0, 0] : Fin 2 → Nat) = fun _ => 0 := funext fun a => by fin_cases a <;> rfl

/-- The first point of a row block leaves, in the accumulator, the block product added to the zero block it has just
    stored there. -/
theorem sout1_A_eq (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : cond1_0 i) (hc1 : ¬cond1_1 i) (x0 : Vec F S1024x2048 .f32) (x1 : Vec F S2048x8 .bf16) (x2 : Vec F S1x8 .f32) :
    sout1_A c i arg2 harg2 arg3 harg3 arg4 harg4 arg5 harg5 arg6 harg6 hc0 hc1 x0 x1 x2 = k1_pay2 x0 (k1_pay1 (F := F)) x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x8) hz1, View.readCov_unit_zero (S := S1024x8) _ hz1]
  simp only [View.readAt_eq_ld, harg2.read_unread, harg3.read_unread, View.ld_unit_zero (S := S1024x2048) hz1, View.ld_unit_zero (S := S2048x8) hz1]

/-- An inner point leaves the block product added to the accumulator it found. -/
theorem sout1_B_eq (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : ¬cond1_1 i) (x0 : Vec F S1024x2048 .f32) (x1 : Vec F S2048x8 .bf16) (x2 : Vec F S1x8 .f32) (xs0 : Vec F S1024x8 .f32) :
    sout1_B c i arg2 harg2 arg3 harg3 arg4 harg4 arg5 harg5 arg6 harg6 hc0 hc1 x0 x1 x2 xs0 = k1_pay2 x0 xs0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero hz1]
  simp only [View.readAt_eq_ld, harg2.read_unread, harg3.read_unread, harg4.read_unread, harg6.read_unread, View.ld_unit_zero (S := S1024x2048) hz1, View.ld_unit_zero (S := S2048x8) hz1, View.ld_unit_zero (S := S1024x8) hz1, View.ld_unit_zero (S := S1x8) hz1, View.readCov_unit_zero (S := S1024x8) _ hz1]

/-- The last point of a row block leaves the same in the accumulator … -/
theorem sout1_C_eq (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) :
    sout1_C c i arg2 harg2 arg3 harg3 arg4 harg4 arg5 harg5 arg6 harg6 hc0 hc1 x0 x1 x2 xs0 = k1_pay2 x0 xs0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.ld_unit_zero (S := S1024x2048) hz1, View.ld_unit_zero (S := S2048x8) hz1, View.ld_unit_zero (S := S1024x8) hz1, View.ld_unit_zero (S := S1x8) hz1, View.readCov_unit_zero (S := S1024x8) _ hz1]

/-- … and in the output window the epilogue of that sum and the bias row. -/
theorem out1_C_3_eq (c : Dev nD) (i : grid1.Coords) (arg2 : Memref sig .tc .vmem S1024x2048 .f32) (harg2 : arg2.IsWhole) (arg3 : Memref sig .tc .vmem S2048x8 .bf16) (harg3 : arg3.IsWhole) (arg4 : Memref sig .tc .vmem S1x8 .f32) (harg4 : arg4.IsWhole) (arg5 : Memref sig .tc .vmem S1024x8 .f32) (harg5 : arg5.IsWhole) (arg6 : Memref sig .tc .vmem S1024x8 .f32) (harg6 : arg6.IsWhole) (hc0 : ¬cond1_0 i) (hc1 : cond1_1 i) (x0 : Vec F S1024x2048 .f32) (x1 : Vec F S2048x8 .bf16) (x2 : Vec F S1x8 .f32) (xs0 : Vec F S1024x8 .f32) :
    out1_C_3 c i arg2 harg2 arg3 harg3 arg4 harg4 arg5 harg5 arg6 harg6 hc0 hc1 x0 x1 x2 xs0 = k1_pay3 (k1_pay2 x0 xs0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.ld_unit_zero (S := S1024x2048) hz1, View.ld_unit_zero (S := S2048x8) hz1, View.ld_unit_zero (S := S1024x8) hz1, View.ld_unit_zero (S := S1x8) hz1, View.readCov_unit_zero (S := S1024x8) _ hz1]

end Cert.KernelIdeal.Hand

end
-- ==== Proof.Val.V1Pay.lean ====
/-
  The second kernel's payloads on the extended reals, read at an entry: the accumulator update is the accumulator's
  entry plus the sum over the 2048 columns of the block of the products of the adjacency block's row with the projected
  block's column (the change of float format and the identity reshapes do nothing there); the epilogue at an entry
  depends only on the entry's row: with the logits the accumulator's row plus the bias row, it is the logit minus the
  row's maximum (taken from −∞ upwards, and once more against −∞) minus the logarithm of the sum of the exponentials of
  the row's shifted logits.
-/
import proofs.«139395_j953482740192_1_alg».proof.Proof.Gen.KernelIdeal.Skeleton
import proofs.«139395_j953482740192_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand.V1

open Cert.KernelIdeal Cert.KernelIdeal.Gen
open Idealize.ShloMosaic Idealize.ShloMosaic.ValueIdx

/-! ## The accumulator update -/

theorem lhs_k1dot_0 (i : S1024x8.Idx) (q : dot_S1024x2048_S2048x8_S1024x8_1_0_0_1_n_n.contr.Idx) :
    (dot_S1024x2048_S2048x8_S1024x8_1_0_0_1_n_n.lhsIdx i q 0).val = (i 0).val := by
  unfold DotDims.lhsIdx
  rw [dif_neg (show ¬(0 : Fin S1024x2048.rank) ∈ dot_S1024x2048_S2048x8_S1024x8_1_0_0_1_n_n.lhsBatch by decide), dif_pos (show (0 : Fin S1024x2048.rank) ∈ dot_S1024x2048_S2048x8_S1024x8_1_0_0_1_n_n.lhsNonContracting by decide)]
  rfl
theorem lhs_k1dot_1 (i : S1024x8.Idx) (q : dot_S1024x2048_S2048x8_S1024x8_1_0_0_1_n_n.contr.Idx) :
    (dot_S1024x2048_S2048x8_S1024x8_1_0_0_1_n_n.lhsIdx i q 1).val = (q ⟨0, by decide⟩).val :=
  dot_S1024x2048_S2048x8_S1024x8_1_0_0_1_n_n.lhsIdx_val_of_single rfl i q
theorem rhs_k1dot_0 (i : S1024x8.Idx) (q : dot_S1024x2048_S2048x8_S1024x8_1_0_0_1_n_n.contr.Idx) :
    (dot_S1024x2048_S2048x8_S1024x8_1_0_0_1_n_n.rhsIdx i q 0).val = (q ⟨0, by decide⟩).val :=
  dot_S1024x2048_S2048x8_S1024x8_1_0_0_1_n_n.rhsIdx_val_of_single rfl i q
theorem rhs_k1dot_1 (i : S1024x8.Idx) (q : dot_S1024x2048_S2048x8_S1024x8_1_0_0_1_n_n.contr.Idx) :
    (dot_S1024x2048_S2048x8_S1024x8_1_0_0_1_n_n.rhsIdx i q 1).val = (i 1).val := by
  unfold DotDims.rhsIdx
  rw [dif_neg (show ¬(1 : Fin S2048x8.rank) ∈ dot_S1024x2048_S2048x8_S1024x8_1_0_0_1_n_n.rhsBatch by decide), dif_pos (show (1 : Fin S2048x8.rank) ∈ dot_S1024x2048_S2048x8_S1024x8_1_0_0_1_n_n.rhsNonContracting by decide)]
  rfl

/-- The block product at an entry: the sum over the block's 2048 columns. -/
theorem blockdot_apply (l : FVec Ideal S1024x2048 .bf16) (r : FVec Ideal S2048x8 .bf16) (p : Fin 1024) (h : Fin 8) :
    FloatOps.matmul dot_S1024x2048_S2048x8_S1024x8_1_0_0_1_n_n none l r (constant (F := Ideal) S1024x8 .f32 0x00000000#32) (ix2 p h)
      = ∑ q : Fin 2048, l (ix2 p q) * r (ix2 q h) :=
  (Ideal.matmul_constant_zero_apply dot_S1024x2048_S2048x8_S1024x8_1_0_0_1_n_n none l r (ix2 p h)).trans
    (Cert.LibPlainDot.sum_plain dot_S1024x2048_S2048x8_S1024x8_1_0_0_1_n_n rfl rfl lhs_k1dot_0 lhs_k1dot_1 rhs_k1dot_0 rhs_k1dot_1 l r p h)

/-- The accumulator update at an entry. -/
theorem pay2_apply (x0 : Vec Ideal S1024x2048 .f32) (acc : Vec Ideal S1024x8 .f32) (x1 : Vec Ideal S2048x8 .bf16) (p : Fin 1024) (h : Fin 8) :
    k1_pay2 (F := Ideal) x0 acc x1 (ix2 p h) = acc (ix2 p h) + ∑ q : Fin 2048, x0 (ix2 p q) * x1 (ix2 q h) := by
  unfold k1_pay2
  simp only [shapeCast_self]
  exact congrArg (fun z => acc (ix2 p h) + z) (blockdot_apply (truncf .bf16 x0 bitsLt_bf16_f32) x1 p h)

/-- The block the first point of a row block stores before it adds: zero at every entry. -/
theorem pay1_apply (j : S1024x8.Idx) : k1_pay1 (F := Ideal) j = 0 := by
  unfold k1_pay1
  simp only [shapeCast_self]
  exact Ideal.ofBits_zero_f32

/-! ## The epilogue -/

/-- The bits of −∞. -/
abbrev negInf : EReal := Ideal.ofBits .f32 0xFF800000#32

/-- A row's maximum, taken from −∞ upwards and once more against −∞. -/
def rowMax (r : Fin 8 → EReal) : EReal := max negInf ((Finset.univ : Finset (Fin 8)).fold max negInf r)

/-- The log-softmax of one row. -/
def rowLsm (r : Fin 8 → EReal) (j : Fin 8) : EReal :=
  (r j - rowMax r) - Ideal.log (∑ j' : Fin 8, Ideal.exp (r j' - rowMax r))

variable {α : Type}

/-- A vector `[a]` cast to a column `[a, 1]` reads, at `(p, 0)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- The index a reduction along the columns reads at row `p` and column `k`. -/
theorem lift_row (p : Fin 1024) (k : Fin 8) : reduces_S1024x8_S1024.lift (ix1 p) k = ix2 p k :=
  funext fun c => Fin.ext (by
    match c with
    | ⟨0, _⟩ => rfl
    | ⟨1, _⟩ => rfl)

/-- The row maximum of a 1024×8 block: at row `p` the fold of `max` from −∞ over the row's eight entries. -/
theorem rowmax_apply (v : FVec Ideal S1024x8 .f32) (hφ : FKind.Formats .f32)
    (hacc : (0xFF800000#32 : BitVec FTy.f32.bits) = FKind.maximumf.neutral .f32 hφ) (p : Fin 1024) :
    multiReduction (F := Ideal) .maximumf [1] S1024 v 0xFF800000#32 reduces_S1024x8_S1024 hφ hacc (ix1 p)
      = (Finset.univ : Finset (Fin 8)).fold max negInf (fun j => v (ix2 p j)) :=
  (Ideal.multiReduction_maximumf_single v 0xFF800000#32 reduces_S1024x8_S1024 hφ hacc (ix1 p)).trans
    (congrArg (fun f : Fin 8 → EReal => (Finset.univ : Finset (Fin 8)).fold max negInf f) (funext fun k => congrArg v (lift_row p k)))

/-- The row sum of a 1024×8 block: at row `p` the sum of the row's eight entries. -/
theorem rowsum_apply (v : FVec Ideal S1024x8 .f32) (hφ : FKind.Formats .f32)
    (hacc : (0x00000000#32 : BitVec FTy.f32.bits) = FKind.add.neutral .f32 hφ) (p : Fin 1024) :
    multiReduction (F := Ideal) .add [1] S1024 v 0x00000000#32 reduces_S1024x8_S1024 hφ hacc (ix1 p)
      = ∑ j : Fin 8, v (ix2 p j) :=
  (Ideal.multiReduction_add_single v 0x00000000#32 reduces_S1024x8_S1024 hφ hacc (ix1 p)).trans
    (Finset.sum_congr rfl fun k _ => congrArg v (lift_row p k))

/-- The column of row maxima, each taken once more against −∞, laid across the eight columns. -/
theorem maxcol_apply (lg : FVec Ideal S1024x8 .f32) (hφ : FKind.Formats .f32)
    (hacc : (0xFF800000#32 : BitVec FTy.f32.bits) = FKind.maximumf.neutral .f32 hφ) (p : Fin 1024) (j : Fin 8) :
    broadcastTo S1024x8
      (shapeCast S1024x1
        (maximumf (broadcast S1024 (FloatOps.ofBits (F := Ideal) .f32 0xFF800000#32))
          (multiReduction (F := Ideal) .maximumf [1] S1024 lg 0xFF800000#32 reduces_S1024x8_S1024 hφ hacc))
        shapeCasts_S1024_S1024x1)
      broadcasts_S1024x1_S1024x8 (ix2 p j) = rowMax (fun j' => lg (ix2 p j')) :=
  (Cert.LibPlainDot.broadcastTo_a1_ab_apply _ broadcasts_S1024x1_S1024x8 p j).trans
    ((shapeCast_a_a1_apply _ shapeCasts_S1024_S1024x1 p 0).trans
      (congrArg (max negInf) (rowmax_apply lg hφ hacc p)))

/-- The column of the logarithms of the row sums of the exponentials, laid across the eight columns. -/
theorem logcol_apply (X : FVec Ideal S1024x8 .f32) (hφ : FKind.Formats .f32)
    (hacc : (0x00000000#32 : BitVec FTy.f32.bits) = FKind.add.neutral .f32 hφ) (p : Fin 1024) (j : Fin 8) :
    broadcastTo S1024x8
      (log (F := Ideal)
        (shapeCast S1024x1
          (multiReduction (F := Ideal) .add [1] S1024 (exp (F := Ideal) X) 0x00000000#32 reduces_S1024x8_S1024 hφ hacc)
          shapeCasts_S1024_S1024x1))
      broadcasts_S1024x1_S1024x8 (ix2 p j) = Ideal.log (∑ j' : Fin 8, Ideal.exp (X (ix2 p j'))) :=
  (Cert.LibPlainDot.broadcastTo_a1_ab_apply _ broadcasts_S1024x1_S1024x8 p j).trans
    (congrArg Ideal.log ((shapeCast_a_a1_apply _ shapeCasts_S1024_S1024x1 p 0).trans (rowsum_apply (exp (F := Ideal) X) hφ hacc p)))

/-- The epilogue at an entry: the log-softmax of the row of the accumulator plus the bias row. -/
theorem pay3_apply (acc : FVec Ideal S1024x8 .f32) (b : FVec Ideal S1x8 .f32) (p : Fin 1024) (j : Fin 8) :
    k1_pay3 (F := Ideal) acc b (ix2 p j) = rowLsm (fun j' => acc (ix2 p j') + b (ix2 (0 : Fin 1) j')) j := by
  have hlg : (fun j' : Fin 8 => (addf (F := Ideal) acc (broadcastTo S1024x8 b broadcasts_S1x8_S1024x8) (ix2 p j') : EReal))
      = fun j' => (acc (ix2 p j') + b (ix2 (0 : Fin 1) j') : EReal) :=
    funext fun j' => congrArg (fun z : EReal => (acc (ix2 p j') : EReal) + z) (broadcastTo_1b_ab_apply b broadcasts_S1x8_S1024x8 p j')
  unfold k1_pay3
  simp only [shapeCast_self]
  unfold rowLsm
  rw [← hlg]
  refine congrArg₂ (fun x y : EReal => x - y) ?_ ?_
  · exact congrArg (fun z : EReal => (addf (F := Ideal) acc (broadcastTo S1024x8 b broadcasts_S1x8_S1024x8) (ix2 p j) : EReal) - z) (maxcol_apply _ _ _ p j)
  · refine (logcol_apply _ _ _ p j).trans (congrArg Ideal.log (Finset.sum_congr rfl fun j' _ => congrArg Ideal.exp ?_))
    exact congrArg (fun z : EReal => (addf (F := Ideal) acc (broadcastTo S1024x8 b broadcasts_S1x8_S1024x8) (ix2 p j') : EReal) - z) (maxcol_apply _ _ _ p j')

end Cert.KernelIdeal.Hand.V1

end
-- ==== Proof.Val.V1Blocks.lean ====
/-
  The blocks the second kernel's windows hand the body, as entries of the arrays: at the grid point t = 8·i + k the
  adjacency block's entry (a, b) is the adjacency at (1024·i + a, 2048·k + b), the projected block's entry (q, h) is the
  projected matrix at (2048·k + q, h), and the bias block is the bias row. The arrays are read as matrices extended by
  zero to all pairs of naturals, so that these entries are named by arithmetic alone.
-/
import proofs.«139395_j953482740192_1_alg».proof.Proof.KIdeal.R1Base
import proofs.«139395_j953482740192_1_alg».proof.Proof.LibTiledSum
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Blocks1

variable (V : (c : Dev nD) → (b : Ref sig .tc) → Buf (Elt Ideal) ((c : Thread nD τ).loc b))

/-- The adjacency as the region finds it, as a matrix. -/
abbrev adjOf1 (c : Dev nD) : Fin 16384 → Fin 16384 → EReal := fun n k => (V c main_arg1 : S16384x16384.Idx → EReal) (ix2 n k)
/-- The projected matrix as the region finds it. -/
abbrev prOf1 (c : Dev nD) : Fin 16384 → Fin 8 → EReal := fun k j => (V c main_v2 : S16384x8.Idx → EReal) (ix2 k j)
/-- The bias row as the region finds it. -/
abbrev biasOf1 (c : Dev nD) : Fin 8 → EReal := fun j => (V c main_v3 : S1x8.Idx → EReal) (ix2 (0 : Fin 1) j)

/-- The adjacency block at a point. -/
abbrev ablk1 (c : Dev nD) (t : Fin cfg1.N) : Vec Ideal S1024x2048 .f32 := iblk1 V c 0 t
/-- The projected matrix's block at a point. -/
abbrev pblk1 (c : Dev nD) (t : Fin cfg1.N) : Vec Ideal S2048x8 .bf16 := iblk1 V c 1 t
/-- The bias block at a point. -/
abbrev bblk1 (c : Dev nD) (t : Fin cfg1.N) : Vec Ideal S1x8 .f32 := iblk1 V c 2 t

/-- The windows' block indices at the point t = 8·i + k: (i, k), (k, 0), (0, 0) and, for the result, (i, 0). -/
theorem idx1_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem ablk1_apply (c : Dev nD) (t : Fin cfg1.N) (a : Fin 1024) (b : Fin 2048) :
    ablk1 V c t (ix2 a b) = Cert.LibTiledSum.ext2 (adjOf1 V c) (1024 * (t.val / 8) + a.val) (2048 * (t.val % 8) + b.val) := by
  have hN : t.val < 128 := lt_of_lt_of_eq t.isLt N_1
  have ha := a.isLt
  have hb := b.isLt
  rw [Cert.LibTiledSum.ext2_of_lt _ (by omega) (by omega)]
  obtain ⟨e0, e1, -⟩ := idx1_facts t
  show V c main_arg1 (((cfg1.win 0).blk t).view.emb (ix2 a b)) = V c main_arg1 (ix2 _ _)
  refine congrArg (V c main_arg1) (funext fun ax => Fin.ext ?_)
  match ax with
  | ⟨0, _⟩ => show win1_0.index t (0 : Fin 2) * 1024 + 1 * a.val = 1024 * (t.val / 8) + a.val; rw [e0]; omega
  | ⟨1, _⟩ => show win1_0.index t (1 : Fin 2) * 2048 + 1 * b.val = 2048 * (t.val % 8) + b.val; rw [e1]; omega

theorem pblk1_apply (c : Dev nD) (t : Fin cfg1.N) (q : Fin 2048) (h : Fin 8) :
    pblk1 V c t (ix2 q h) = Cert.LibTiledSum.ext2 (prOf1 V c) (2048 * (t.val % 8) + q.val) h.val := by
  have hN : t.val < 128 := lt_of_lt_of_eq t.isLt N_1
  have hq := q.isLt
  have hh := h.isLt
  rw [Cert.LibTiledSum.ext2_of_lt _ (by omega) (by omega)]
  obtain ⟨-, -, e0, e1, -⟩ := idx1_facts t
  show V c main_v2 (((cfg1.win 1).blk t).view.emb (ix2 q h)) = V c main_v2 (ix2 _ _)
  refine congrArg (V c main_v2) (funext fun ax => Fin.ext ?_)
  match ax with
  | ⟨0, _⟩ => show win1_1.index t (0 : Fin 2) * 2048 + 1 * q.val = 2048 * (t.val % 8) + q.val; rw [e0]; omega
  | ⟨1, _⟩ => show win1_1.index t (1 : Fin 2) * 8 + 1 * h.val = h.val; rw [e1]; omega

theorem bblk1_apply (c : Dev nD) (t : Fin cfg1.N) (j : Fin 8) :
    bblk1 V c t (ix2 (0 : Fin 1) j) = biasOf1 V c j := by
  obtain ⟨-, -, -, -, e0, e1, -⟩ := idx1_facts t
  show V c main_v3 (((cfg1.win 2).blk t).view.emb (ix2 (0 : Fin 1) j)) = V c main_v3 (ix2 (0 : Fin 1) j)
  refine congrArg (V c main_v3) (funext fun ax => Fin.ext ?_)
  match ax with
  | ⟨0, _⟩ => show win1_2.index t (0 : Fin 2) * 1 + 1 * 0 = 0; rw [e0]
  | ⟨1, _⟩ => show win1_2.index t (1 : Fin 2) * 8 + 1 * j.val = j.val; rw [e1]; omega

end Blocks1

end Cert.KernelIdeal.Hand

end
-- ==== Proof.Val.V1Acc.lean ====
/-
  The accumulator of the second kernel after each grid point: after the point t = 8·i + k it holds, at (p, h), the sum
  over the column blocks 0 … k and the 2048 columns of each of the products of the adjacency's row 1024·i + p with the
  projected matrix's column h — by induction on the point: the first point of a row block adds its block product to
  zero, every later point adds its own to what the point before left. After the eighth block this is the sum over all
  16384 columns.
-/
import proofs.«139395_j953482740192_1_alg».proof.Proof.Val.V1Pieces
import proofs.«139395_j953482740192_1_alg».proof.Proof.Val.V1Pay
import proofs.«139395_j953482740192_1_alg».proof.Proof.Val.V1Blocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibTiledSum (ext2)

section Acc1

variable (V : (c : Dev nD) → (b : Ref sig .tc) → Buf (Elt Ideal) ((c : Thread nD τ).loc b))

/-- The products of row `1024·i + p` of the adjacency with column `h` of the projected matrix, summed over the first
    `K` column blocks. -/
def accSum1 (c : Dev nD) (i K : ℕ) (p : Fin 1024) (h : Fin 8) : EReal :=
  ∑ k' ∈ Finset.range K, ∑ q : Fin 2048,
    ext2 (adjOf1 V c) (1024 * i + p.val) (2048 * k' + q.val) * ext2 (prOf1 V c) (2048 * k' + q.val) h.val

/-- One more column block. -/
theorem accSum1_succ (c : Dev nD) (i K : ℕ) (p : Fin 1024) (h : Fin 8) :
    accSum1 V c i (K + 1) p h = accSum1 V c i K p h
      + ∑ q : Fin 2048, ext2 (adjOf1 V c) (1024 * i + p.val) (2048 * K + q.val) * ext2 (prOf1 V c) (2048 * K + q.val) h.val :=
  Finset.sum_range_succ _ _

/-- One block product at an entry, in the arrays' own coordinates. -/
theorem blockprod1 (c : Dev nD) (t : Fin cfg1.N) (p : Fin 1024) (h : Fin 8) :
    ∑ q : Fin 2048, ablk1 V c t (ix2 p q) * pblk1 V c t (ix2 q h)
      = ∑ q : Fin 2048, ext2 (adjOf1 V c) (1024 * (t.val / 8) + p.val) (2048 * (t.val % 8) + q.val)
          * ext2 (prOf1 V c) (2048 * (t.val % 8) + q.val) h.val :=
  Finset.sum_congr rfl fun q _ => by rw [ablk1_apply, pblk1_apply]

/-- The accumulator after each point. -/
theorem acc1_eq (c : Dev nD) : ∀ (n : ℕ) (hn : n < cfg1.N) (p : Fin 1024) (h : Fin 8),
    (outsAt1 V c n hn).2 (ix2 p h) = accSum1 V c (n / 8) (n % 8 + 1) p h := by
  intro n
  induction n using Nat.strong_induction_on with
  | _ n ih =>
    intro hn p h
    by_cases h0 : n % 8 = 0
    · have h1 : ¬n % 8 = 7 := by omega
      rw [outsAt1_A V c ⟨n, hn⟩ h0 h1]
      dsimp only
      refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) ((hcond1_0 ⟨n, hn⟩).mpr h0) (fun hh => h1 ((hcond1_1 ⟨n, hn⟩).mp hh)) (iblk1 V c 0 ⟨n, hn⟩) (iblk1 V c 1 ⟨n, hn⟩) (iblk1 V c 2 ⟨n, hn⟩)) (ix2 p h)).trans ?_
      refine (V1.pay2_apply (ablk1 V c ⟨n, hn⟩) (k1_pay1 (F := Ideal)) (pblk1 V c ⟨n, hn⟩) p h).trans ?_
      rw [V1.pay1_apply, zero_add, blockprod1 V c ⟨n, hn⟩ p h]
      unfold accSum1
      rw [h0, Finset.sum_range_one]
    · have hz : n ≠ 0 := by omega
      have hprev := ih (n - 1) (by omega) (by omega) p h
      have e1 : (n - 1) / 8 = n / 8 := by omega
      have e2 : (n - 1) % 8 + 1 = n % 8 := by omega
      rw [e1, e2] at hprev
      by_cases h1 : n % 8 = 7
      · rw [outsAt1_C V c ⟨n, hn⟩ h0 h1]
        dsimp only
        refine (congrFun (sout1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun hh => h0 ((hcond1_0 ⟨n, hn⟩).mp hh)) ((hcond1_1 ⟨n, hn⟩).mpr h1) (iblk1 V c 0 ⟨n, hn⟩) (iblk1 V c 1 ⟨n, hn⟩) (iblk1 V c 2 ⟨n, hn⟩) (outsAt1 V c (n - 1) (by omega)).2) (ix2 p h)).trans ?_
        refine (V1.pay2_apply (ablk1 V c ⟨n, hn⟩) (outsAt1 V c (n - 1) (by omega)).2 (pblk1 V c ⟨n, hn⟩) p h).trans ?_
        rw [hprev, blockprod1 V c ⟨n, hn⟩ p h]
        unfold accSum1
        rw [Finset.sum_range_succ]
      · rw [outsAt1_B V c ⟨n, hn⟩ h0 h1]
        dsimp only
        refine (congrFun (sout1_B_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun hh => h0 ((hcond1_0 ⟨n, hn⟩).mp hh)) (fun hh => h1 ((hcond1_1 ⟨n, hn⟩).mp hh)) (iblk1 V c 0 ⟨n, hn⟩) (iblk1 V c 1 ⟨n, hn⟩) (iblk1 V c 2 ⟨n, hn⟩) (outsAt1 V c (n - 1) (by omega)).2) (ix2 p h)).trans ?_
        refine (V1.pay2_apply (ablk1 V c ⟨n, hn⟩) (outsAt1 V c (n - 1) (by omega)).2 (pblk1 V c ⟨n, hn⟩) p h).trans ?_
        rw [hprev, blockprod1 V c ⟨n, hn⟩ p h]
        unfold accSum1
        rw [Finset.sum_range_succ]

/-- After all eight column blocks: the sum over all 16384 columns. -/
theorem accSum1_full (c : Dev nD) (i : ℕ) (p : Fin 1024) (h : Fin 8) (n : Fin 16384) (hn : n.val = 1024 * i + p.val) :
    accSum1 V c i 8 p h = ∑ k : Fin 16384, adjOf1 V c n k * prOf1 V c k h := by
  unfold accSum1
  rw [← hn]
  exact Cert.LibTiledSum.sum_tiles_mul 8 2048 (adjOf1 V c) (prOf1 V c) n h

end Acc1

end Cert.KernelIdeal.Hand

end
-- ==== Proof.Val.Value1.lean ====
/-
  What the second kernel leaves in its result array, on the extended reals: over the eight column blocks of a row
  block the accumulator sums the block products of the adjacency with the projected matrix, which regroup into the
  sum over all 16384 columns; at the last column block the bias row is added and the row-wise log-softmax of the
  logits is written to the rows of the row block; the sixteen row blocks tile the array.
-/
import proofs.«139395_j953482740192_1_alg».proof.Proof.Val.V1Acc
import proofs.«139395_j953482740192_1_alg».proof.Proof.KIdeal.Region1
import proofs.«139395_j953482740192_1_alg».proof.Proof.KSpec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value1

variable (V : (c : Dev nD) → (b : Ref sig .tc) → Buf (Elt Ideal) ((c : Thread nD τ).loc b))

/-- The result array the second kernel is to leave: the row-wise log-softmax of the logits. -/
abbrev G1 (c : Dev nD) : S16384x8.Idx → EReal := fun i =>
  Cert.KSpec.lsmOf (Cert.KSpec.logitOf (adjOf1 V c) (prOf1 V c) (biasOf1 V c)) (i 0) (i 1)

/-- What the last point of a row block stores at (p, h) of its block, given that the accumulator it found holds the
    sum over the first seven column blocks: the log-softmax, at column h, of row 1024·i + p of the logits. -/
theorem flush1_val (c : Dev nD) (t : Fin cfg1.N) (h1 : t.val % 8 = 7) (prev : Vec Ideal S1024x8 .f32)
    (hprev : ∀ (p : Fin 1024) (h : Fin 8), prev (ix2 p h) = accSum1 V c (t.val / 8) 7 p h)
    (p : Fin 1024) (h : Fin 8) (n : Fin 16384) (hn : n.val = 1024 * (t.val / 8) + p.val) :
    k1_pay3 (F := Ideal) (k1_pay2 (F := Ideal) (ablk1 V c t) prev (pblk1 V c t)) (bblk1 V c t) (ix2 p h)
      = Cert.KSpec.lsmOf (Cert.KSpec.logitOf (adjOf1 V c) (prOf1 V c) (biasOf1 V c)) n h := by
  refine (V1.pay3_apply _ _ p h).trans ?_
  show V1.rowLsm _ h = V1.rowLsm (Cert.KSpec.logitOf (adjOf1 V c) (prOf1 V c) (biasOf1 V c) n) h
  refine congrArg (fun r => V1.rowLsm r h) (funext fun j' => ?_)
  show k1_pay2 (F := Ideal) (ablk1 V c t) prev (pblk1 V c t) (ix2 p j') + bblk1 V c t (ix2 (0 : Fin 1) j')
    = (∑ k : Fin 16384, adjOf1 V c n k * prOf1 V c k j') + biasOf1 V c j'
  rw [V1.pay2_apply, hprev, blockprod1 V c t p j', bblk1_apply, ← accSum1_full V c (t.val / 8) p j' n hn, h1]
  exact congrArg (fun z => z + biasOf1 V c j') (accSum1_succ V c (t.val / 8) 7 p j').symm

/-- What a last point of a row block writes back is its block of the log-softmax of the logits. -/
theorem flushed1_eq (c : Dev nD) (t : Fin cfg1.N) (hf : (cfg1.win 3).flush t = true) :
    (dat1 V c).flushed 3 t = ((cfg1.win 3).blk t).view.read (Elt Ideal) (G1 V c) := by
  have h1 : t.val % 8 = 7 := (flush1_3 t).mp hf
  have h0 : ¬t.val % 8 = 0 := by omega
  have hN : t.val < 128 := lt_of_lt_of_eq t.isLt N_1
  show (cfg1.win 3).cut (grid1.coords t) ((dat1 V c).after 3 t) = _
  rw [after1_3, outsAt1_C V c t h0 h1]
  dsimp only
  funext j
  have hj0 : (j 0).val < 1024 := (j 0).isLt
  have hj1 : (j 1).val < 8 := (j 1).isLt
  obtain ⟨-, -, -, -, -, -, e0, e1⟩ := idx1_facts t
  have hx : (cfg1.win 3).xinj (grid1.coords t) j = ix2 (⟨(j 0).val, hj0⟩ : Fin 1024) (⟨(j 1).val, hj1⟩ : Fin 8) :=
    funext fun a => by
      match a with
      | ⟨0, _⟩ => rfl
      | ⟨1, _⟩ => rfl
  have hn : ((((cfg1.win 3).blk t).view.emb j) 0).val = 1024 * (t.val / 8) + (j 0).val := by
    show win1_3.index t (0 : Fin 2) * 1024 + 1 * (j 0).val = 1024 * (t.val / 8) + (j 0).val
    rw [e0]; omega
  have hh : ((((cfg1.win 3).blk t).view.emb j) 1 : Fin 8) = ⟨(j 1).val, hj1⟩ := Fin.ext (by
    show win1_3.index t (1 : Fin 2) * 8 + 1 * (j 1).val = (j 1).val
    rw [e1]; omega)
  show out1_C_3 c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2 ((cfg1.win 3).xinj (grid1.coords t) j)
    = Cert.KSpec.lsmOf (Cert.KSpec.logitOf (adjOf1 V c) (prOf1 V c) (biasOf1 V c)) ((((cfg1.win 3).blk t).view.emb j) 0) ((((cfg1.win 3).blk t).view.emb j) 1)
  rw [hx, hh]
  refine (congrFun (out1_C_3_eq (F := Ideal) c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2) (ix2 (⟨(j 0).val, hj0⟩ : Fin 1024) (⟨(j 1).val, hj1⟩ : Fin 8))).trans ?_
  refine flush1_val V c t h1 (outsAt1 V c (t.val - 1) (Nat.lt_of_le_of_lt (Nat.sub_le _ _) t.isLt)).2 (fun p h => ?_) ⟨(j 0).val, hj0⟩ ⟨(j 1).val, hj1⟩ ((((cfg1.win 3).blk t).view.emb j) 0) hn
  refine (acc1_eq V c (t.val - 1) (Nat.lt_of_le_of_lt (Nat.sub_le _ _) t.isLt) p h).trans ?_
  rw [show (t.val - 1) / 8 = t.val / 8 by omega, show (t.val - 1) % 8 + 1 = 7 by omega]

/-- An entry of the result array is in a point's block exactly when its coordinates are in the block's ranges. -/
theorem mem_blk1_3 (t : Fin cfg1.N) (i : S16384x8.Idx) :
    i ∈ ((cfg1.win 3).blk t).view.set ↔ ∀ a : Fin 2, win1_3.index t a * S1024x8.size a ≤ (i a).val ∧ (i a).val < win1_3.index t a * S1024x8.size a + S1024x8.size a := by
  show i ∈ ((View.whole main_v4).slice (win1_3.rect t)).set ↔ _
  rw [View.set_slice_whole, Rect.mem_set_unit]
  exact Iff.rfl

/-- Row r of the result array is written back by the last point of its row block, 8·(r / 1024) + 7. -/
theorem cover1_3 (i : S16384x8.Idx) : ∃ t : Fin cfg1.N, (cfg1.win 3).flush t = true ∧ i ∈ ((cfg1.win 3).blk t).view.set := by
  have hi0 : (i 0).val < 16384 := (i 0).isLt
  have hi1 : (i 1).val < 8 := (i 1).isLt
  have hlt : 8 * ((i 0).val / 1024) + 7 < cfg1.N := by rw [show cfg1.N = 128 from N_1]; omega
  obtain ⟨-, -, -, -, -, -, e0, e1⟩ := idx1_facts ⟨8 * ((i 0).val / 1024) + 7, hlt⟩
  dsimp only at e0
  refine ⟨⟨8 * ((i 0).val / 1024) + 7, hlt⟩, (flush1_3 _).mpr (by show (8 * ((i 0).val / 1024) + 7) % 8 = 7; omega), ?_⟩
  rw [mem_blk1_3]
  intro a
  match a with
  | ⟨0, _⟩ =>
    show win1_3.index ⟨8 * ((i 0).val / 1024) + 7, hlt⟩ (0 : Fin 2) * 1024 ≤ (i 0).val ∧ (i 0).val < win1_3.index ⟨8 * ((i 0).val / 1024) + 7, hlt⟩ (0 : Fin 2) * 1024 + 1024
    rw [e0]; omega
  | ⟨1, _⟩ =>
    show win1_3.index ⟨8 * ((i 0).val / 1024) + 7, hlt⟩ (1 : Fin 2) * 8 ≤ (i 1).val ∧ (i 1).val < win1_3.index ⟨8 * ((i 0).val / 1024) + 7, hlt⟩ (1 : Fin 2) * 8 + 8
    rw [e1]; omega

end Value1

/-- After region 1 its result array holds the row-wise log-softmax of `adj · pr + b` of the three arrays it was
    handed: the adjacency, the projected matrix and the bias as one row, as the region found them. -/
theorem arrAt1_eq (V : (c : Dev nD) → (b : Ref sig .tc) → Buf (Elt Ideal) ((c : Thread nD τ).loc b)) (c : Dev nD) :
    (dat1 (F := Ideal) V c).arrAt 3 cfg1.N
      = fun i : S16384x8.Idx => Cert.KSpec.lsmOf (Cert.KSpec.logitOf
          (fun n k => (V c main_arg1 : S16384x16384.Idx → EReal) (ix2 n k))
          (fun k j => (V c main_v2 : S16384x8.Idx → EReal) (ix2 k j))
          (fun j => (V c main_v3 : S1x8.Idx → EReal) (ix2 (0 : Fin 1) j))) (i 0) (i 1) :=
  (dat1 (F := Ideal) V c).arrAt_eq_of_cover 3 (G1 V c) (fun t hf => flushed1_eq V c t hf) (cover1_3)

end Cert.KernelIdeal.Hand

end
-- ==== Proof.Val.Join.lean ====
/-
  The kernel program's result is the specified function of the five argument arrays, on the extended reals.

  The first host stretch leaves the feature product x · W1 (the change of format is the identity) in the buffer the
  first kernel reads its feature blocks from, and touches neither the adjacency nor the weights; the first kernel
  leaves max (adj · feat) 0 · W2; the next host operation lays the bias out as one row and touches nothing else; the
  second kernel leaves the row-wise log-softmax of adj · (that) + bias. Substituting each into the next gives the
  specification's term.
-/
import proofs.«139395_j953482740192_1_alg».proof.Proof.KIdeal.Frame
import proofs.«139395_j953482740192_1_alg».proof.Proof.Val.Value0
import proofs.«139395_j953482740192_1_alg».proof.Proof.Val.Value1
import proofs.«139395_j953482740192_1_alg».proof.Proof.LibPlainDot
import Idealize.ShloMosaic.Lib.StableHlo.Run
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-! ## The feature product's dimension numbers, axis by axis -/

theorem lhs_feat_0 (i : S16384x128.Idx) (q : dot_S16384x512_S512x128_S16384x128_1_0_0_1_n_n.contr.Idx) :
    (dot_S16384x512_S512x128_S16384x128_1_0_0_1_n_n.lhsIdx i q 0).val = (i 0).val := by
  unfold DotDims.lhsIdx
  rw [dif_neg (show ¬(0 : Fin S16384x512.rank) ∈ dot_S16384x512_S512x128_S16384x128_1_0_0_1_n_n.lhsBatch by decide), dif_pos (show (0 : Fin S16384x512.rank) ∈ dot_S16384x512_S512x128_S16384x128_1_0_0_1_n_n.lhsNonContracting by decide)]
  rfl
theorem lhs_feat_1 (i : S16384x128.Idx) (q : dot_S16384x512_S512x128_S16384x128_1_0_0_1_n_n.contr.Idx) :
    (dot_S16384x512_S512x128_S16384x128_1_0_0_1_n_n.lhsIdx i q 1).val = (q ⟨0, by decide⟩).val := by
  unfold DotDims.lhsIdx
  rw [dif_neg (show ¬(1 : Fin S16384x512.rank) ∈ dot_S16384x512_S512x128_S16384x128_1_0_0_1_n_n.lhsBatch by decide), dif_neg (show ¬(1 : Fin S16384x512.rank) ∈ dot_S16384x512_S512x128_S16384x128_1_0_0_1_n_n.lhsNonContracting by decide)]
  rfl
theorem rhs_feat_0 (i : S16384x128.Idx) (q : dot_S16384x512_S512x128_S16384x128_1_0_0_1_n_n.contr.Idx) :
    (dot_S16384x512_S512x128_S16384x128_1_0_0_1_n_n.rhsIdx i q 0).val = (q ⟨0, by decide⟩).val := by
  unfold DotDims.rhsIdx
  rw [dif_neg (show ¬(0 : Fin S512x128.rank) ∈ dot_S16384x512_S512x128_S16384x128_1_0_0_1_n_n.rhsBatch by decide), dif_neg (show ¬(0 : Fin S512x128.rank) ∈ dot_S16384x512_S512x128_S16384x128_1_0_0_1_n_n.rhsNonContracting by decide)]
  rfl
theorem rhs_feat_1 (i : S16384x128.Idx) (q : dot_S16384x512_S512x128_S16384x128_1_0_0_1_n_n.contr.Idx) :
    (dot_S16384x512_S512x128_S16384x128_1_0_0_1_n_n.rhsIdx i q 1).val = (i 1).val := by
  unfold DotDims.rhsIdx
  rw [dif_neg (show ¬(1 : Fin S512x128.rank) ∈ dot_S16384x512_S512x128_S16384x128_1_0_0_1_n_n.rhsBatch by decide), dif_pos (show (1 : Fin S512x128.rank) ∈ dot_S16384x512_S512x128_S16384x128_1_0_0_1_n_n.rhsNonContracting by decide)]
  rfl

/-! ## What the regions are handed -/

/-- The first host stretch does not touch the adjacency. -/
theorem V1_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Nor the second layer's weights. -/
theorem V1_arg3 (c : Dev nD) : V1 m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Nor the bias. -/
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- It leaves the feature product, changed to the narrower format, in the first kernel's second operand. -/
theorem V1_v1 (c : Dev nD) :
    (V1 m ρ c main_v1 : S16384x128.Idx → EReal)
      = truncf .bf16 (Host.dotGeneral (F := Ideal) (φ₁ := .f32) (φ₂ := .f32) dot_S16384x512_S512x128_S16384x128_1_0_0_1_n_n none
          (m ((c : Thread nD τ).loc main_arg0) : FVec Ideal S16384x512 .f32) (m ((c : Thread nD τ).loc main_arg2) : FVec Ideal S512x128 .f32)) bitsLt_bf16_f32 := by
  show StableHlo.after hostOps0 _ (Proc.devRef .tc main_v1) = _
  after_results

/-- Read at an entry, that is the plain sum over the 512 features. -/
theorem V1_v1_apply (c : Dev nD) (k : Fin 16384) (h : Fin 128) :
    (V1 m ρ c main_v1 : S16384x128.Idx → EReal) (ix2 k h)
      = Cert.Spec.feat (fun n f => (m ((c : Thread nD τ).loc main_arg0) : S16384x512.Idx → EReal) (ix2 n f))
          (fun f h => (m ((c : Thread nD τ).loc main_arg2) : S512x128.Idx → EReal) (ix2 f h)) k h := by
  rw [V1_v1]
  show Host.dotGeneral (F := Ideal) (φ₁ := .f32) (φ₂ := .f32) dot_S16384x512_S512x128_S16384x128_1_0_0_1_n_n none
      (m ((c : Thread nD τ).loc main_arg0) : FVec Ideal S16384x512 .f32) (m ((c : Thread nD τ).loc main_arg2) : FVec Ideal S512x128 .f32) (ix2 k h) = _
  simp only [Host.dotGeneral]
  rw [Ideal.dotGeneral_apply]
  exact Cert.LibPlainDot.sum_plain dot_S16384x512_S512x128_S16384x128_1_0_0_1_n_n rfl rfl lhs_feat_0 lhs_feat_1 rhs_feat_0 rhs_feat_1 _ _ k h

/-- The second region finds the adjacency as launched: the first region only reads it, the host operation between
    does not touch it. -/
theorem V3_arg1 (c : Dev nD) : V3 m ρ c main_arg1 = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_arr m ρ c 0).trans (((dat0 (V1 m ρ) c).arrAt_in 0 rfl _).trans ((A_eq0 (V1 m ρ) c 0).trans (V1_arg1 m ρ c))))

/-- It finds the first region's result array as that region left it. -/
theorem V3_v2 (c : Dev nD) : V3 m ρ c main_v2 = (dat0 (V1 m ρ) c).arrAt 3 cfg0.N :=
  (StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 3)

/-- And the bias laid out as one row. -/
theorem V3_v3 (c : Dev nD) :
    (V3 m ρ c main_v3 : S1x8.Idx → EReal) = shapeCast S1x8 (m ((c : Thread nD τ).loc main_arg4) : S8.Idx → EReal) shapeCasts_S8_S1x8 := by
  have e : (V3 m ρ c main_v3 : S1x8.Idx → EReal) = shapeCast S1x8 (W2 m ρ c (Proc.devRef .tc main_arg4) : S8.Idx → EReal) shapeCasts_S8_S1x8 := by
    show StableHlo.after hostOps1 _ (Proc.devRef .tc main_v3) = _
    after_results <;> rfl
  rw [e, W2_of_ne m ρ c main_arg4 (by decide), W1_arg4]

/-! ## The result -/

/-- The second region leaves the specified function of the five arguments in the result array. -/
theorem final (c : Dev nD) :
    (dat1 (V3 m ρ) c).arrAt 3 cfg1.N
      = Cert.Spec.Gout (m ((c : Thread nD τ).loc main_arg0)) (m ((c : Thread nD τ).loc main_arg1)) (m ((c : Thread nD τ).loc main_arg2))
          (m ((c : Thread nD τ).loc main_arg3)) (m ((c : Thread nD τ).loc main_arg4)) := by
  rw [arrAt1_eq (V3 m ρ) c]
  funext i
  unfold Cert.Spec.Gout
  rw [Cert.KSpec.logSoftmax_eq]
  have hA : (fun n k => (V3 m ρ c main_arg1 : S16384x16384.Idx → EReal) (ix2 n k))
      = (fun n k => (m ((c : Thread nD τ).loc main_arg1) : S16384x16384.Idx → EReal) (ix2 n k)) := by rw [V3_arg1]
  have hB : (fun j => (V3 m ρ c main_v3 : S1x8.Idx → EReal) (ix2 (0 : Fin 1) j))
      = (fun j => (m ((c : Thread nD τ).loc main_arg4) : S8.Idx → EReal) (ix1 j)) := by
    funext j; rw [V3_v3]; exact shapeCast_a_1a_apply _ _ _ _
  have hP : (fun k j => (V3 m ρ c main_v2 : S16384x8.Idx → EReal) (ix2 k j))
      = Cert.KSpec.projOf (fun n k => (m ((c : Thread nD τ).loc main_arg1) : S16384x16384.Idx → EReal) (ix2 n k))
          (Cert.Spec.feat (fun n f => (m ((c : Thread nD τ).loc main_arg0) : S16384x512.Idx → EReal) (ix2 n f))
            (fun f h => (m ((c : Thread nD τ).loc main_arg2) : S512x128.Idx → EReal) (ix2 f h)))
          (fun h j => (m ((c : Thread nD τ).loc main_arg3) : S128x8.Idx → EReal) (ix2 h j)) := by
    funext k j
    rw [V3_v2, arrAt0_eq (V1 m ρ) c]
    show Cert.KSpec.projOf _ _ _ k j = _
    have h1 : (fun n k => (V1 m ρ c main_arg1 : S16384x16384.Idx → EReal) (ix2 n k))
        = (fun n k => (m ((c : Thread nD τ).loc main_arg1) : S16384x16384.Idx → EReal) (ix2 n k)) := by rw [V1_arg1]
    have h2 : (fun k h => (V1 m ρ c main_v1 : S16384x128.Idx → EReal) (ix2 k h))
        = Cert.Spec.feat (fun n f => (m ((c : Thread nD τ).loc main_arg0) : S16384x512.Idx → EReal) (ix2 n f))
            (fun f h => (m ((c : Thread nD τ).loc main_arg2) : S512x128.Idx → EReal) (ix2 f h)) := by
      funext k h; exact V1_v1_apply m ρ c k h
    have h3 : (fun h j => (V1 m ρ c main_arg3 : S128x8.Idx → EReal) (ix2 h j))
        = (fun h j => (m ((c : Thread nD τ).loc main_arg3) : S128x8.Idx → EReal) (ix2 h j)) := by rw [V1_arg3]
    rw [h1, h2, h3]
  show Cert.KSpec.lsmOf (Cert.KSpec.logitOf _ _ _) (i 0) (i 1) = _
  rw [hA, hB, hP]

end Cert.KernelIdeal.Hand

end
-- ==== Proof.lean ====
/-
  A two-layer graph convolution with a row-wise log-softmax, as two grid kernels against the plain reference.

  The kernel program computes the feature product x · W1 on the host, then runs two kernels over a 16 × 8 grid of
  (row block, column block) tiles of the 16384 × 16384 adjacency. Each keeps an accumulator across the eight column
  blocks of a row block: the first sums adj-block · feature-block and, at the last column block, writes
  max(acc, 0) · W2; the second sums adj-block · (that result's block) and, at the last column block, adds the bias and
  writes the row-wise log-softmax. The reference computes the same quantities with whole-matrix products.

  On the extended reals the two agree because a sum over 16384 columns is the sum over eight blocks of the sums over
  2048 columns (addition there is commutative and associative; no finiteness is needed), a change of float format is
  the identity, and a product accumulated into zero is the plain product. Both programs end with the same log-softmax
  of the same logits.

  The frames (each program terminates, faults nowhere, leaves its arguments unchanged): for the two kernel programs
  from the run of @main as host stretches and kernel regions, each region's body proved case by case (first, inner and
  last column block of a row block) with the accumulator carried in the region invariant; for the reference from its
  run as a line of host operations. The idealization rewrote nothing, so the kernel's idealization is its own text.
-/
import proofs.«139395_j953482740192_1_alg».proof.Defs
import proofs.«139395_j953482740192_1_alg».proof.Proof.Gen.Kernel
import proofs.«139395_j953482740192_1_alg».proof.Proof.Gen.KernelIdeal
import proofs.«139395_j953482740192_1_alg».proof.Proof.Gen.ReferenceIdeal
import proofs.«139395_j953482740192_1_alg».proof.Proof.Gen.Pre_finite_inputs
import proofs.«139395_j953482740192_1_alg».proof.Proof.KBits.Frame
import proofs.«139395_j953482740192_1_alg».proof.Proof.KIdeal.Frame
import proofs.«139395_j953482740192_1_alg».proof.Proof.RefRun
import proofs.«139395_j953482740192_1_alg».proof.Proof.RefIsG
import proofs.«139395_j953482740192_1_alg».proof.Proof.Val.Join
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- On the extended reals both programs end with the specified function of the five arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.Gout (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.final m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v8_eq, Cert.RefSpec.ref_is_G,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
